-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x1536 : Shape := ⟨3, ![128, 256, 1536]⟩
abbrev S32x1536x1024 : Shape := ⟨3, ![32, 1536, 1024]⟩
abbrev S32x1024 : Shape := ⟨2, ![32, 1024]⟩
abbrev S32x1024x16 : Shape := ⟨3, ![32, 1024, 16]⟩
abbrev S32x16 : Shape := ⟨2, ![32, 16]⟩
abbrev S128 : Shape := ⟨1, ![128]⟩
abbrev S_ : Shape := ⟨0, ![]⟩

class Facts : Prop where
  bcast_S_S128x256x1536 : S_.BroadcastsInDim S128x256x1536 (![] : Fin 0 → Fin S128x256x1536.rank)
  reducesTo_S128x256x1536_S_d0_1_2 : S128x256x1536.ReducesTo [0, 1, 2] S_
  h_S_ : 0 < S_.numel
  bcast_S_S32x1536x1024 : S_.BroadcastsInDim S32x1536x1024 (![] : Fin 0 → Fin S32x1536x1024.rank)
  reducesTo_S32x1536x1024_S_d0_1_2 : S32x1536x1024.ReducesTo [0, 1, 2] S_
  bcast_S_S32x1024 : S_.BroadcastsInDim S32x1024 (![] : Fin 0 → Fin S32x1024.rank)
  reducesTo_S32x1024_S_d0_1 : S32x1024.ReducesTo [0, 1] S_
  bcast_S_S32x1024x16 : S_.BroadcastsInDim S32x1024x16 (![] : Fin 0 → Fin S32x1024x16.rank)
  reducesTo_S32x1024x16_S_d0_1_2 : S32x1024x16.ReducesTo [0, 1, 2] S_
  bcast_S_S32x16 : S_.BroadcastsInDim S32x16 (![] : Fin 0 → Fin S32x16.rank)
  reducesTo_S32x16_S_d0_1 : S32x16.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S32x16 .f32) (main_arg5 : IVec S128 32) (main_v13 : IVec S_ 1) (main_v16 : IVec S32x1024x16 1) : IVec S_ 1 :=
  let main_c_5 : IVec S_ 1 := constantI S_ 1 1#1
  let main_v17 : IVec S_ 1 := (fun x v => Host.reduce IntOp.andi x v reducesTo_S32x1024x16_S_d0_1_2 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_c_8 : IVec S_ 32 := constantI S_ 32 0#32
  let main_v24 : IVec S128 32 := broadcastInDim S128 ![] bcast_S_S128 main_c_8
  let main_v25 : IVec S128 1 := cmpi .sge main_arg5 main_v24
  let main_c_9 : IVec S_ 32 := constantI S_ 32 32#32
  let main_v26 : IVec S128 32 := broadcastInDim S128 ![] bcast_S_S128 main_c_9
  let main_v27 : IVec S128 1 := cmpi .slt main_arg5 main_v26
  let main_v28 : IVec S128 1 := andi main_v25 main_v27
  let main_c_10 : IVec S_ 1 := constantI S_ 1 1#1
  let main_v29 : IVec S_ 1 := (fun x v => Host.reduce IntOp.andi x v reducesTo_S128_S_d0 h_S_) main_v28 main_c_10
  let main_v30 : IVec S_ 1 := andi main_v23 main_v29
  main_v30

def fn {F : FTy → Type} [FloatOps F] (main_arg0 : FVec F S128x256x1536 .f32) (main_arg1 : FVec F S32x1536x1024 .f32) (main_arg2 : FVec F S32x1024 .f32) (main_arg3 : FVec F S32x1024x16 .f32) (main_arg4 : FVec F S32x16 .f32) (main_arg5 : IVec S128 32) : IVec S_ 1 :=
  let main_v0 : FVec F S128x256x1536 .f32 := Host.absf main_arg0
  let main_cst : FVec F S_ .f32 := constant S_ .f32 0x7F800000#32
  let main_v1 : FVec F S128x256x1536 .f32 := broadcastInDim S128x256x1536 ![] bcast_S_S128x256x1536 main_cst
  let main_v2 : IVec S128x256x1536 1 := cmpf .olt main_v0 main_v1
  let main_c : IVec S_ 1 := constantI S_ 1 1#1
  let main_v3 : IVec S_ 1 := (fun x v => Host.reduce IntOp.andi x v reducesTo_S128x256x1536_S_d0_1_2 h_S_) main_v2 main_c
  let main_v4 : FVec F S32x1536x1024 .f32 := Host.absf main_arg1
  let main_cst_0 : FVec F S_ .f32 := constant S_ .f32 0x7F800000#32
  let main_v5 : FVec F S32x1536x1024 .f32 := broadcastInDim S32x1536x1024 ![] bcast_S_S32x1536x1024 main_cst_0
  let main_v6 : IVec S32x1536x1024 1 := cmpf .olt main_v4 main_v5
  let main_c_1 : IVec S_ 1 := constantI S_ 1 1#1
  let main_v7 : IVec S_ 1 := (fun x v => Host.reduce IntOp.andi x v reducesTo_S32x1536x1024_S_d0_1_2 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S32x1024x16 .f32 := Host.absf main_arg3
  let main_cst_4 : FVec F S_ .f32 := constant S_ .f32 0x7F800000#32
  let main_v15 : FVec F S32x1024x16 .f32 := broadcastInDim S32x1024x16 ![] bcast_S_S32x1024x16 main_cst_4
  let main_v16 : IVec S32x1024x16 1 := cmpf .olt main_v14 main_v15
  fn_part1 (F := F) main_arg4 main_arg5 main_v13 main_v16
-- ==== Kernel.lean ====
abbrev S128x256x1536 : Shape := ⟨3, ![128, 256, 1536]⟩
abbrev S32x1536x1024 : Shape := ⟨3, ![32, 1536, 1024]⟩
abbrev S32x1024 : Shape := ⟨2, ![32, 1024]⟩
abbrev S32x1024x16 : Shape := ⟨3, ![32, 1024, 16]⟩
abbrev S32x16 : Shape := ⟨2, ![32, 16]⟩
abbrev S128 : Shape := ⟨1, ![128]⟩
abbrev S32x1x1024 : Shape := ⟨3, ![32, 1, 1024]⟩
abbrev S32x1x16 : Shape := ⟨3, ![32, 1, 16]⟩
abbrev S128x256x16 : Shape := ⟨3, ![128, 256, 16]⟩
abbrev S1x256x1536 : Shape := ⟨3, ![1, 256, 1536]⟩
abbrev S1x1536x1024 : Shape := ⟨3, ![1, 1536, 1024]⟩
abbrev S1 : Shape := ⟨1, ![1]⟩
abbrev S1x1x1024 : Shape := ⟨3, ![1, 1, 1024]⟩
abbrev S1x1024x16 : Shape := ⟨3, ![1, 1024, 16]⟩
abbrev S1x1x16 : Shape := ⟨3, ![1, 1, 16]⟩
abbrev S1x256x16 : Shape := ⟨3, ![1, 256, 16]⟩
abbrev S256x1536 : Shape := ⟨2, ![256, 1536]⟩
abbrev S1536x1024 : Shape := ⟨2, ![1536, 1024]⟩
abbrev S256x1024 : Shape := ⟨2, ![256, 1024]⟩
abbrev S1x1024 : Shape := ⟨2, ![1, 1024]⟩
abbrev S1024x16 : Shape := ⟨2, ![1024, 16]⟩
abbrev S256x16 : Shape := ⟨2, ![256, 16]⟩
abbrev S1x16 : Shape := ⟨2, ![1, 16]⟩

abbrev nBuf : Space → Nat
  | .hbm => 11
  | .vmem => 12
  | .smem => 1
  | _ => 0

abbrev bufTy : (tb : Table) → Fin (tcTables nBuf tb) → BufTy
  | .hbm, ⟨0, _⟩ => ⟨S128x256x1536, .f32⟩
  | .hbm, ⟨1, _⟩ => ⟨S32x1536x1024, .f32⟩
  | .hbm, ⟨2, _⟩ => ⟨S32x1024, .f32⟩
  | .hbm, ⟨3, _⟩ => ⟨S32x1024x16, .f32⟩
  | .hbm, ⟨4, _⟩ => ⟨S32x16, .f32⟩
  | .hbm, ⟨5, _⟩ => ⟨S128x256x1536, .bf16⟩
  | .hbm, ⟨6, _⟩ => ⟨S32x1536x1024, .bf16⟩
  | .hbm, ⟨7, _⟩ => ⟨S32x1024x16, .bf16⟩
  | .hbm, ⟨8, _⟩ => ⟨S32x1x1024, .f32⟩
  | .hbm, ⟨9, _⟩ => ⟨S32x1x16, .f32⟩
  | .hbm, ⟨10, _⟩ => ⟨S128x256x16, .f32⟩
  | .local _ .vmem, ⟨0, _⟩ => ⟨S1x256x1536, .bf16⟩
  | .local _ .vmem, ⟨1, _⟩ => ⟨S1x256x1536, .bf16⟩
  | .local _ .vmem, ⟨2, _⟩ => ⟨S1x1536x1024, .bf16⟩
  | .local _ .vmem, ⟨3, _⟩ => ⟨S1x1536x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x16, .bf16⟩
  | .local _ .vmem, ⟨7, _⟩ => ⟨S1x1024x16, .bf16⟩
  | .local _ .vmem, ⟨8, _⟩ => ⟨S1x1x16, .f32⟩
  | .local _ .vmem, ⟨9, _⟩ => ⟨S1x1x16, .f32⟩
  | .local _ .vmem, ⟨10, _⟩ => ⟨S1x256x16, .f32⟩
  | .local _ .vmem, ⟨11, _⟩ => ⟨S1x256x16, .f32⟩
  | .local _ .smem, ⟨0, _⟩ => ⟨S128, .i32⟩
  | _, _ => ⟨S128x256x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S32x1024_S32x1x1024 : S32x1024.ShapeCasts S32x1x1024
  shapeCasts_S32x16_S32x1x16 : S32x16.ShapeCasts S32x1x16
  numel1_S1 : S1.numel = 1
  inb_S1x256x1536_S1x256x1536_0_0_0 : ∀ a, (![0, 0, 0] : Fin 3 → Nat) a + S1x256x1536.size a ≤ S1x256x1536.size a
  h_S1x256x1536 : 0 < S1x256x1536.numel
  shapeCasts_S1x256x1536_S256x1536 : S1x256x1536.ShapeCasts S256x1536
  inb_S1x1536x1024_S1x1536x1024_0_0_0 : ∀ a, (![0, 0, 0] : Fin 3 → Nat) a + S1x1536x1024.size a ≤ S1x1536x1024.size a
  h_S1x1536x1024 : 0 < S1x1536x1024.numel
  shapeCasts_S1x1536x1024_S1536x1024 : S1x1536x1024.ShapeCasts S1536x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S256x1024 : S1x1024.Broadcasts S256x1024
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  broadcasts_S1x16_S256x16 : S1x16.Broadcasts S256x16
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  shapeCasts_S256x16_S1x256x16 : S256x16.ShapeCasts S1x256x16
  dot_S256x1536_S1536x1024_S256x1024_1_0_0_1_n_n_wf : DotDims.WF S256x1536 S1536x1024 S256x1024 [1] [0] [0] [1] [] []
  dot_S256x1024_S1024x16_S256x16_1_0_0_1_n_n_wf : DotDims.WF S256x1024 S1024x16 S256x16 [1] [0] [0] [1] [] []
  hrank0 : 0 < grid0.rank
  k0_off1_inb : ∀ i : grid0.Coords, ∀ a, (k0_off1 i) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1536.size a ≤ S128x256x1536.size a
  hwx0_0 : ∀ i : grid0.Coords, EltTy.bits .bf16 = 32 ∨ (Rect.block (s := S128x256x1536) S1x256x1536.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x16.size a ≤ S128x256x16.size a
  hwx0_5 : ∀ i : grid0.Coords, EltTy.bits .f32 = 32 ∨ (Rect.block (s := S128x256x16) S1x256x16.size (cc0_transform_5 i) (hinb0_5 i)).WholeWords (EltTy.packing .f32)

variable [Facts₀]

def dot_S256x1536_S1536x1024_S256x1024_1_0_0_1_n_n : DotDims S256x1536 S1536x1024 S256x1024 where
  lhsContracting := [1]
  rhsContracting := [0]
  lhsNonContracting := [0]
  rhsNonContracting := [1]
  lhsBatch := []
  rhsBatch := []
  wf := dot_S256x1536_S1536x1024_S256x1024_1_0_0_1_n_n_wf
def dot_S256x1024_S1024x16_S256x16_1_0_0_1_n_n : DotDims S256x1024 S1024x16 S256x16 where
  lhsContracting := [1]
  rhsContracting := [0]
  lhsNonContracting := [0]
  rhsNonContracting := [1]
  lhsBatch := []
  rhsBatch := []
  wf := dot_S256x1024_S1024x16_S256x16_1_0_0_1_n_n_wf

abbrev spec0_0 : Pipeline.WinSpec sig grid0.rank :=
  Pipeline.WinSpec.ofSpec (Memref.whole main_v0) S1x256x1536.size reads0_0 false false 2 stage0_0 sem0_0 nbuf0_0 hstage0_0

abbrev spec0_1 : Pipeline.WinSpec sig grid0.rank :=
  Pipeline.WinSpec.ofSpec (Memref.whole main_v1) S1x1536x1024.size reads0_1 false false 2 stage0_1 sem0_1 nbuf0_1 hstage0_1

abbrev spec0_2 : Pipeline.WinSpec sig grid0.rank :=
  Pipeline.WinSpec.ofSpec (Memref.whole main_v3) S1x1x1024.size reads0_2 false false 2 stage0_2 sem0_2 nbuf0_2 hstage0_2

abbrev spec0_3 : Pipeline.WinSpec sig grid0.rank :=
  Pipeline.WinSpec.ofSpec (Memref.whole main_v2) S1x1024x16.size reads0_3 false false 2 stage0_3 sem0_3 nbuf0_3 hstage0_3

abbrev spec0_4 : Pipeline.WinSpec sig grid0.rank :=
  Pipeline.WinSpec.ofSpec (Memref.whole main_v4) S1x1x16.size reads0_4 false false 2 stage0_4 sem0_4 nbuf0_4 hstage0_4

abbrev spec0_5 : Pipeline.WinSpec sig grid0.rank :=
  Pipeline.WinSpec.ofSpec (Memref.whole main_v5) S1x256x16.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1536x1024.size a ≤ S32x1536x1024.size a), EltTy.bits .bf16 = 32 ∨ (Rect.block (s := S32x1536x1024) S1x1536x1024.size (cc0_transform_1 k0_off1_inb numel1_S1 pf i) h).WholeWords (EltTy.packing .bf16)) ∧
  (∀ i : grid0.Coords, ∃ h : (∀ a, (cc0_transform_2 k0_off1_inb numel1_S1 pf i a + 1) * S1x1x1024.size a ≤ S32x1x1024.size a), EltTy.bits .f32 = 32 ∨ (Rect.block (s := S32x1x1024) S1x1x1024.size (cc0_transform_2 k0_off1_inb numel1_S1 pf i) h).WholeWords (EltTy.packing .f32)) ∧
  (∀ i : grid0.Coords, ∃ h : (∀ a, (cc0_transform_3 k0_off1_inb numel1_S1 pf i a + 1) * S1x1024x16.size a ≤ S32x1024x16.size a), EltTy.bits .bf16 = 32 ∨ (Rect.block (s := S32x1024x16) S1x1024x16.size (cc0_transform_3 k0_off1_inb numel1_S1 pf i) h).WholeWords (EltTy.packing .bf16)) ∧
  (∀ i : grid0.Coords, ∃ h : (∀ a, (cc0_transform_4 k0_off1_inb numel1_S1 pf i a + 1) * S1x1x16.size a ≤ S32x1x16.size a), EltTy.bits .f32 = 32 ∨ (Rect.block (s := S32x1x16) S1x1x16.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2.1 i).elim fun h _ => h a | 4 => fun i a => (hok.2.2.2 i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2.1 i).elim fun _ h => h | 4 => fun i => (hok.2.2.2 i).elim fun _ h => h | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S128x256x1536 : Shape := ⟨3, ![128, 256, 1536]⟩
abbrev S32x1536x1024 : Shape := ⟨3, ![32, 1536, 1024]⟩
abbrev S32x1024 : Shape := ⟨2, ![32, 1024]⟩
abbrev S32x1024x16 : Shape := ⟨3, ![32, 1024, 16]⟩
abbrev S32x16 : Shape := ⟨2, ![32, 16]⟩
abbrev S128 : Shape := ⟨1, ![128]⟩
abbrev S_ : Shape := ⟨0, ![]⟩
abbrev S128x1 : Shape := ⟨2, ![128, 1]⟩
abbrev S128x1536x1024 : Shape := ⟨3, ![128, 1536, 1024]⟩
abbrev S128x256x1024 : Shape := ⟨3, ![128, 256, 1024]⟩
abbrev S128x1024 : Shape := ⟨2, ![128, 1024]⟩
abbrev S128x1x1024 : Shape := ⟨3, ![128, 1, 1024]⟩
abbrev S128x1024x16 : Shape := ⟨3, ![128, 1024, 16]⟩
abbrev S128x256x16 : Shape := ⟨3, ![128, 256, 16]⟩
abbrev S128x16 : Shape := ⟨2, ![128, 16]⟩
abbrev S128x1x16 : Shape := ⟨3, ![128, 1, 16]⟩

abbrev nBuf : Space → Nat
  | .hbm => 53
  | .vmem => 0
  | .smem => 0
  | _ => 0

abbrev bufTy : (tb : Table) → Fin (tcTables nBuf tb) → BufTy
  | .hbm, ⟨0, _⟩ => ⟨S128x256x1536, .f32⟩
  | .hbm, ⟨1, _⟩ => ⟨S32x1536x1024, .f32⟩
  | .hbm, ⟨2, _⟩ => ⟨S32x1024, .f32⟩
  | .hbm, ⟨3, _⟩ => ⟨S32x1024x16, .f32⟩
  | .hbm, ⟨4, _⟩ => ⟨S32x16, .f32⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S128x1536x1024, .f32⟩
  | .hbm, ⟨15, _⟩ => ⟨S128x256x1024, .f32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S128x1, .i32⟩
  | .hbm, ⟨24, _⟩ => ⟨S128x1024, .f32⟩
  | .hbm, ⟨25, _⟩ => ⟨S128x1x1024, .f32⟩
  | .hbm, ⟨26, _⟩ => ⟨S128x256x1024, .f32⟩
  | .hbm, ⟨27, _⟩ => ⟨S128x256x1024, .f32⟩
  | .hbm, ⟨28, _⟩ => ⟨S_, .f32⟩
  | .hbm, ⟨29, _⟩ => ⟨S128x256x1024, .f32⟩
  | .hbm, ⟨30, _⟩ => ⟨S128x256x1024, .f32⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S128x1, .i32⟩
  | .hbm, ⟨39, _⟩ => ⟨S128x1024x16, .f32⟩
  | .hbm, ⟨40, _⟩ => ⟨S128x256x16, .f32⟩
  | .hbm, ⟨41, _⟩ => ⟨S_, .i32⟩
  | .hbm, ⟨42, _⟩ => ⟨S128, .i32⟩
  | .hbm, ⟨43, _⟩ => ⟨S128, .i1⟩
  | .hbm, ⟨44, _⟩ => ⟨S_, .i32⟩
  | .hbm, ⟨45, _⟩ => ⟨S128, .i32⟩
  | .hbm, ⟨46, _⟩ => ⟨S128, .i32⟩
  | .hbm, ⟨47, _⟩ => ⟨S128, .i32⟩
  | .hbm, ⟨48, _⟩ => ⟨S128x1, .i32⟩
  | .hbm, ⟨49, _⟩ => ⟨S128x16, .f32⟩
  | .hbm, ⟨50, _⟩ => ⟨S128x1x16, .f32⟩
  | .hbm, ⟨51, _⟩ => ⟨S128x256x16, .f32⟩
  | .hbm, ⟨52, _⟩ => ⟨S128x256x16, .f32⟩
  | _, _ => ⟨S128x256x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128x1024_S128x1x1024_0_2 : S128x1024.BroadcastsInDim S128x1x1024 (![0, 2] : Fin 2 → Fin S128x1x1024.rank)
  bcast_S128x1x1024_S128x256x1024_0_1_2 : S128x1x1024.BroadcastsInDim S128x256x1024 (![0, 1, 2] : Fin 3 → Fin S128x256x1024.rank)
  bcast_S_S128x256x1024 : S_.BroadcastsInDim S128x256x1024 (![] : Fin 0 → Fin S128x256x1024.rank)
  bcast_S128x16_S128x1x16_0_2 : S128x16.BroadcastsInDim S128x1x16 (![0, 2] : Fin 2 → Fin S128x1x16.rank)
  bcast_S128x1x16_S128x256x16_0_1_2 : S128x1x16.BroadcastsInDim S128x256x16 (![0, 1, 2] : Fin 3 → Fin S128x256x16.rank)
  gather_S32x1536x1024_S128x1_S128x1536x1024_12_0_n_n_0_1_115361024_wf : GatherDims.WF S32x1536x1024 S128x1 S128x1536x1024 [1, 2] [0] [] [0] [] 1 ![1, 1536, 1024]
  dot_S128x256x1536_S128x1536x1024_S128x256x1024_2_1_1_2_0_0_wf : DotDims.WF S128x256x1536 S128x1536x1024 S128x256x1024 [2] [1] [1] [2] [0] [0]
  gather_S32x1024_S128x1_S128x1024_1_0_n_n_0_1_11024_wf : GatherDims.WF S32x1024 S128x1 S128x1024 [1] [0] [] [0] [] 1 ![1, 1024]
  gather_S32x1024x16_S128x1_S128x1024x16_12_0_n_n_0_1_1102416_wf : GatherDims.WF S32x1024x16 S128x1 S128x1024x16 [1, 2] [0] [] [0] [] 1 ![1, 1024, 16]
  dot_S128x256x1024_S128x1024x16_S128x256x16_2_1_1_2_0_0_wf : DotDims.WF S128x256x1024 S128x1024x16 S128x256x16 [2] [1] [1] [2] [0] [0]
  gather_S32x16_S128x1_S128x16_1_0_n_n_0_1_116_wf : GatherDims.WF S32x16 S128x1 S128x16 [1] [0] [] [0] [] 1 ![1, 16]

variable [Facts₀]

def gather_S32x1536x1024_S128x1_S128x1536x1024_12_0_n_n_0_1_115361024 : GatherDims S32x1536x1024 S128x1 S128x1536x1024 where
  offsetDims := [1, 2]
  collapsedSliceDims := [0]
  operandBatchingDims := []
  startIndicesBatchingDims := []
  startIndexMap := [0]
  indexVectorDim := 1
  sliceSizes := ![1, 1536, 1024]
  wf := gather_S32x1536x1024_S128x1_S128x1536x1024_12_0_n_n_0_1_115361024_wf
def dot_S128x256x1536_S128x1536x1024_S128x256x1024_2_1_1_2_0_0 : DotDims S128x256x1536 S128x1536x1024 S128x256x1024 where
  lhsContracting := [2]
  rhsContracting := [1]
  lhsNonContracting := [1]
  rhsNonContracting := [2]
  lhsBatch := [0]
  rhsBatch := [0]
  wf := dot_S128x256x1536_S128x1536x1024_S128x256x1024_2_1_1_2_0_0_wf
def gather_S32x1024_S128x1_S128x1024_1_0_n_n_0_1_11024 : GatherDims S32x1024 S128x1 S128x1024 where
  offsetDims := [1]
  collapsedSliceDims := [0]
  operandBatchingDims := []
  startIndicesBatchingDims := []
  startIndexMap := [0]
  indexVectorDim := 1
  sliceSizes := ![1, 1024]
  wf := gather_S32x1024_S128x1_S128x1024_1_0_n_n_0_1_11024_wf
def gather_S32x1024x16_S128x1_S128x1024x16_12_0_n_n_0_1_1102416 : GatherDims S32x1024x16 S128x1 S128x1024x16 where
  offsetDims := [1, 2]
  collapsedSliceDims := [0]
  operandBatchingDims := []
  startIndicesBatchingDims := []
  startIndexMap := [0]
  indexVectorDim := 1
  sliceSizes := ![1, 1024, 16]
  wf := gather_S32x1024x16_S128x1_S128x1024x16_12_0_n_n_0_1_1102416_wf
def dot_S128x256x1024_S128x1024x16_S128x256x16_2_1_1_2_0_0 : DotDims S128x256x1024 S128x1024x16 S128x256x16 where
  lhsContracting := [2]
  rhsContracting := [1]
  lhsNonContracting := [1]
  rhsNonContracting := [2]
  lhsBatch := [0]
  rhsBatch := [0]
  wf := dot_S128x256x1024_S128x1024x16_S128x256x16_2_1_1_2_0_0_wf
def gather_S32x16_S128x1_S128x16_1_0_n_n_0_1_116 : GatherDims S32x16 S128x1 S128x16 where
  offsetDims := [1]
  collapsedSliceDims := [0]
  operandBatchingDims := []
  startIndicesBatchingDims := []
  startIndexMap := [0]
  indexVectorDim := 1
  sliceSizes := ![1, 16]
  wf := gather_S32x16_S128x1_S128x16_1_0_n_n_0_1_116_wf

class Facts : Prop extends Facts₀ where

variable [Facts]
-- ==== Proof.PreDecode.lean ====
/-
  The precondition read back at the category table: the printed predicate ends in the conjunction, over all 128 lanes,
  of (cat[b] ≥ 0 signed) and (cat[b] < 32 signed); when the predicate is 1, each word cat[b] is therefore below 32 as an
  unsigned number.
-/
import proofs.«416208_j50190987821416_2_alg».proof.Pre_finite_inputs
import proofs.«416208_j50190987821416_2_alg».proof.Proof.Gen.Pre_finite_inputs
import Idealize.ShloMosaic.Lib.ReduceAll
import Idealize.ShloMosaic.Lib.ValueIdx

noncomputable section

namespace Cert.PreDecode

open Idealize.ShloMosaic Idealize.ShloMosaic.ValueIdx
open Cert.Pre_finite_inputs

/-- A rank-0 array has one index. -/
instance subsingleton_S_ : Subsingleton S_.Idx := ⟨fun a b => funext fun d => d.elim0⟩

/-- A 32-bit word that is ≥ 0 and < 32 as a signed number is below 32 as an unsigned number. -/
theorem toNat_lt_32 (w : BitVec 32) (h0 : IntOp.cmpi .sge w 0#32 = 1#1) (h1 : IntOp.cmpi .slt w 32#32 = 1#1) :
    w.toNat < 32 := by
  rw [IntOp.cmpi_sge] at h0
  rw [IntOp.cmpi_slt] at h1
  have e0 : (0#32 : BitVec 32).toInt = 0 := by decide
  have e32 : (32#32 : BitVec 32).toInt = 32 := by decide
  rw [e0] at h0
  rw [e32] at h1
  have hw := w.isLt
  rw [BitVec.toInt_eq_toNat_cond] at h0 h1
  split at h0 <;> omega

/-- THE PRECONDITION DECODED at lane b: the category word is below 32. -/
theorem cat_lt {F : FTy → Type} [FloatOps F] (x0 : FVec F Cert.Pre_finite_inputs.S128x256x1536 .f32) (x1 : FVec F Cert.Pre_finite_inputs.S32x1536x1024 .f32) (x2 : FVec F Cert.Pre_finite_inputs.S32x1024 .f32) (x3 : FVec F Cert.Pre_finite_inputs.S32x1024x16 .f32) (x4 : FVec F Cert.Pre_finite_inputs.S32x16 .f32) (x5 : IVec Cert.Pre_finite_inputs.S128 32)
    (h : Cert.Pre_finite_inputs.fn (F := F) x0 x1 x2 x3 x4 x5 = fun _ => 1#1) (b : Fin 128) : (x5 (Idealize.ShloMosaic.ValueIdx.ix1 b)).toNat < 32 := by
  have e := congrFun h ix0
  dsimp only [fn, fn_part1] at e
  have e29 := (IntOp.andi_eq_one.1 e).2
  have hl := Host.reduce_andi_all _ _ _ _ _ e29 (ix1 b)
  obtain ⟨h0, h1⟩ := IntOp.andi_eq_one.1 hl
  exact toNat_lt_32 _ h0 h1

end Cert.PreDecode

end
-- ==== Proof.OkKernel.lean ====
/-
  From the precondition to the side condition of the prefetched category table. The precondition says every word
  cat[b] is ≥ 0 and < 32 signed, hence below 32 unsigned. At grid point i the index maps of the four windows that read the
  table return the block index (cat[i].toNat, 0, 0) into an array whose leading axis has extent 32 and whose other axes the
  block spans whole: so the block lies inside the array on every axis. The transfers are word-exact: the two 32-bit
  windows by their element width, the two 16-bit windows because the block's row extent (1536, 1024) is even.
-/
import proofs.«416208_j50190987821416_2_alg».proof.Defs
import proofs.«416208_j50190987821416_2_alg».proof.Proof.Gen.Kernel.Frame
import proofs.«416208_j50190987821416_2_alg».proof.Proof.Gen.Pre_finite_inputs
import proofs.«416208_j50190987821416_2_alg».proof.Proof.PreDecode

set_option maxRecDepth 16384

noncomputable section

namespace Cert.Kernel.OkOfPre

open Cert.Kernel Cert.Kernel.Gen
open Idealize.ShloMosaic Idealize.ShloMosaic.TcCoe Idealize.SL.Sem

variable (m : (ℓ : Loc nD τ sig) → Buf (Elt Bits) ℓ)

/-- THE PRECONDITION DECODED at lane b of the category table held by device c: the word is below 32. -/
theorem cat_lt (h : Cert.Pre_Kernel m) (c : Dev nD) (b : Fin 128) :
    (m ((c.tc : Thread nD τ).loc main_arg5) (Idealize.ShloMosaic.ValueIdx.ix1 b)).toNat < 32 :=
  Cert.PreDecode.cat_lt (F := Bits) _ _ _ _ _ _ (h c) b

/-- Every word of the table as the region finds it (device 0's, unchanged since launch) is below 32. -/
theorem tbl_lt (h : Cert.Pre_Kernel m) (x : S128.Idx) : (tbl m 0 x).toNat < 32 := by
  have e : tbl m 0 = m (((0 : Dev nD) : Thread nD τ).loc main_arg5) := V_main_arg5 m 0
  rw [e, ValueIdx.eq_ix1 x]
  exact cat_lt m h 0 (x 0)

/-- The pipeline's side condition: each of the four windows' blocks, at the category word, inside its array, and its
    transfer word-exact. -/
theorem ok_of_pre (h : Cert.Pre_Kernel m) : Ok m := by
  have hl : ∀ x, (tbl m 0 x).toNat < 32 := tbl_lt m h
  refine ⟨fun i => ?_, fun i => ?_, fun i => ?_, fun i => ?_⟩
  · obtain ⟨w, hw, e⟩ : ∃ w : BitVec 32, w.toNat < 32 ∧ cc0_transform_1 k0_off1_inb numel1_S1 (tbl m) i = ![w.toNat, 0, 0] :=
      ⟨_, hl _, rfl⟩
    refine ⟨fun a => ?_, Or.inr (Affine.block_words_dvd (of_decide_eq_true rfl) (by decide))⟩
    rw [e]
    fin_cases a <;> simp [S1x1536x1024, S32x1536x1024] <;> omega
  · obtain ⟨w, hw, e⟩ : ∃ w : BitVec 32, w.toNat < 32 ∧ cc0_transform_2 k0_off1_inb numel1_S1 (tbl m) i = ![w.toNat, 0, 0] :=
      ⟨_, hl _, rfl⟩
    refine ⟨fun a => ?_, Or.inl rfl⟩
    rw [e]
    fin_cases a <;> simp [S1x1x1024, S32x1x1024] <;> omega
  · obtain ⟨w, hw, e⟩ : ∃ w : BitVec 32, w.toNat < 32 ∧ cc0_transform_3 k0_off1_inb numel1_S1 (tbl m) i = ![w.toNat, 0, 0] :=
      ⟨_, hl _, rfl⟩
    refine ⟨fun a => ?_, Or.inr (Affine.block_words_dvd (of_decide_eq_true rfl) (by decide))⟩
    rw [e]
    fin_cases a <;> simp [S1x1024x16, S32x1024x16] <;> omega
  · obtain ⟨w, hw, e⟩ : ∃ w : BitVec 32, w.toNat < 32 ∧ cc0_transform_4 k0_off1_inb numel1_S1 (tbl m) i = ![w.toNat, 0, 0] :=
      ⟨_, hl _, rfl⟩
    refine ⟨fun a => ?_, Or.inl rfl⟩
    rw [e]
    fin_cases a <;> simp [S1x1x16, S32x1x16] <;> omega

end Cert.Kernel.OkOfPre

end
-- ==== Proof.OkKernelIdeal.lean ====
/-
  From the precondition to the side condition of the prefetched category table. The precondition says every word
  cat[b] is ≥ 0 and < 32 signed, hence below 32 unsigned. At grid point i the index maps of the four windows that read the
  table return the block index (cat[i].toNat, 0, 0) into an array whose leading axis has extent 32 and whose other axes the
  block spans whole: so the block lies inside the array on every axis. The transfers are word-exact: the two 32-bit
  windows by their element width, the two 16-bit windows because the block's row extent (1536, 1024) is even.
-/
import proofs.«416208_j50190987821416_2_alg».proof.Defs
import proofs.«416208_j50190987821416_2_alg».proof.Proof.Gen.KernelIdeal.Frame
import proofs.«416208_j50190987821416_2_alg».proof.Proof.Gen.Pre_finite_inputs
import proofs.«416208_j50190987821416_2_alg».proof.Proof.PreDecode

set_option maxRecDepth 16384

noncomputable section

namespace Cert.KernelIdeal.OkOfPre

open Cert.KernelIdeal Cert.KernelIdeal.Gen
open Idealize.ShloMosaic Idealize.ShloMosaic.TcCoe Idealize.SL.Sem

variable (m : (ℓ : Loc nD τ sig) → Buf (Elt Ideal) ℓ)

/-- THE PRECONDITION DECODED at lane b of the category table held by device c: the word is below 32. -/
theorem cat_lt (h : Cert.Pre_KernelIdeal m) (c : Dev nD) (b : Fin 128) :
    (m ((c.tc : Thread nD τ).loc main_arg5) (Idealize.ShloMosaic.ValueIdx.ix1 b)).toNat < 32 :=
  Cert.PreDecode.cat_lt (F := Ideal) _ _ _ _ _ _ (h c) b

/-- Every word of the table as the region finds it (device 0's, unchanged since launch) is below 32. -/
theorem tbl_lt (h : Cert.Pre_KernelIdeal m) (x : S128.Idx) : (tbl m 0 x).toNat < 32 := by
  have e : tbl m 0 = m (((0 : Dev nD) : Thread nD τ).loc main_arg5) := V_main_arg5 m 0
  rw [e, ValueIdx.eq_ix1 x]
  exact cat_lt m h 0 (x 0)

/-- The pipeline's side condition: each of the four windows' blocks, at the category word, inside its array, and its
    transfer word-exact. -/
theorem ok_of_pre (h : Cert.Pre_KernelIdeal m) : Ok m := by
  have hl : ∀ x, (tbl m 0 x).toNat < 32 := tbl_lt m h
  refine ⟨fun i => ?_, fun i => ?_, fun i => ?_, fun i => ?_⟩
  · obtain ⟨w, hw, e⟩ : ∃ w : BitVec 32, w.toNat < 32 ∧ cc0_transform_1 k0_off1_inb numel1_S1 (tbl m) i = ![w.toNat, 0, 0] :=
      ⟨_, hl _, rfl⟩
    refine ⟨fun a => ?_, Or.inr (Affine.block_words_dvd (of_decide_eq_true rfl) (by decide))⟩
    rw [e]
    fin_cases a <;> simp [S1x1536x1024, S32x1536x1024] <;> omega
  · obtain ⟨w, hw, e⟩ : ∃ w : BitVec 32, w.toNat < 32 ∧ cc0_transform_2 k0_off1_inb numel1_S1 (tbl m) i = ![w.toNat, 0, 0] :=
      ⟨_, hl _, rfl⟩
    refine ⟨fun a => ?_, Or.inl rfl⟩
    rw [e]
    fin_cases a <;> simp [S1x1x1024, S32x1x1024] <;> omega
  · obtain ⟨w, hw, e⟩ : ∃ w : BitVec 32, w.toNat < 32 ∧ cc0_transform_3 k0_off1_inb numel1_S1 (tbl m) i = ![w.toNat, 0, 0] :=
      ⟨_, hl _, rfl⟩
    refine ⟨fun a => ?_, Or.inr (Affine.block_words_dvd (of_decide_eq_true rfl) (by decide))⟩
    rw [e]
    fin_cases a <;> simp [S1x1024x16, S32x1024x16] <;> omega
  · obtain ⟨w, hw, e⟩ : ∃ w : BitVec 32, w.toNat < 32 ∧ cc0_transform_4 k0_off1_inb numel1_S1 (tbl m) i = ![w.toNat, 0, 0] :=
      ⟨_, hl _, rfl⟩
    refine ⟨fun a => ?_, Or.inl rfl⟩
    rw [e]
    fin_cases a <;> simp [S1x1x16, S32x1x16] <;> omega

end Cert.KernelIdeal.OkOfPre

end
-- ==== Proof.Spec.lean ====
/-
  What the category-routed two-layer head computes, as one function of its argument arrays.

  Batch element b is routed to the weight set of its category r b.  With x the activations
  [128 × 256 × 1536], W1 [32 × 1536 × 1024] and b1 [32 × 1024] the first layer's weights and biases,
  W2 [32 × 1024 × 16] and b2 [32 × 16] the second layer's, the result at (b, t, o) is

      (Σ_h  max ((Σ_d x[b,t,d] · W1[r b,d,h]) + b1[r b,h]) 0 · W2[r b,h,o])  +  b2[r b,o]

  on the extended reals.  The zero under the maximum is kept as the zero word's value; it is the
  same word on both sides and is never evaluated.
-/
import Idealize.ShloMosaic.PureOps.Ideal
import Idealize.ShloMosaic.Lib.ValueIdx

noncomputable section

namespace Cert.Spec

open Idealize.ShloMosaic Idealize.ShloMosaic.ValueIdx

/-- The hidden activation of batch element b, token t, hidden unit h, for the weight set q:
    the first layer's affine map followed by the maximum with zero. -/
def hidden (x : (⟨3, ![128, 256, 1536]⟩ : Shape).Idx → EReal) (W1 : (⟨3, ![32, 1536, 1024]⟩ : Shape).Idx → EReal)
    (b1 : (⟨2, ![32, 1024]⟩ : Shape).Idx → EReal) (q : Fin 32) (b : Fin 128) (t : Fin 256) (h : Fin 1024) : EReal :=
  max ((∑ d : Fin 1536, x (ix3 b t d) * W1 (ix3 q d h)) + b1 (ix2 q h)) (Ideal.ofBits .f32 0x00000000#32)

/-- The head's output for batch element b, token t, output unit o, for the weight set q. -/
def out (x : (⟨3, ![128, 256, 1536]⟩ : Shape).Idx → EReal) (W1 : (⟨3, ![32, 1536, 1024]⟩ : Shape).Idx → EReal)
    (b1 : (⟨2, ![32, 1024]⟩ : Shape).Idx → EReal) (W2 : (⟨3, ![32, 1024, 16]⟩ : Shape).Idx → EReal)
    (b2 : (⟨2, ![32, 16]⟩ : Shape).Idx → EReal) (q : Fin 32) (b : Fin 128) (t : Fin 256) (o : Fin 16) : EReal :=
  (∑ h : Fin 1024, hidden x W1 b1 q b t h * W2 (ix3 q h o)) + b2 (ix2 q o)

/-- The whole result array: element (b, t, o) is the head's output with the weight set r b. -/
def G (x : (⟨3, ![128, 256, 1536]⟩ : Shape).Idx → EReal) (W1 : (⟨3, ![32, 1536, 1024]⟩ : Shape).Idx → EReal)
    (b1 : (⟨2, ![32, 1024]⟩ : Shape).Idx → EReal) (W2 : (⟨3, ![32, 1024, 16]⟩ : Shape).Idx → EReal)
    (b2 : (⟨2, ![32, 16]⟩ : Shape).Idx → EReal) (r : Fin 128 → Fin 32) :
    (⟨3, ![128, 256, 16]⟩ : Shape).Idx → EReal :=
  fun i => out x W1 b1 W2 b2 (r ⟨(i 0).val, (i 0).isLt⟩) ⟨(i 0).val, (i 0).isLt⟩ ⟨(i 1).val, (i 1).isLt⟩ ⟨(i 2).val, (i 2).isLt⟩

/-- The category of batch element b read off the category words, given that every word is below 32. -/
def row (cat : (⟨1, ![128]⟩ : Shape).Idx → BitVec 32) (hr : ∀ b : Fin 128, (cat (ix1 b)).toNat < 32) (b : Fin 128) : Fin 32 :=
  ⟨(cat (ix1 b)).toNat, hr b⟩

theorem G_apply (x : (⟨3, ![128, 256, 1536]⟩ : Shape).Idx → EReal) (W1 : (⟨3, ![32, 1536, 1024]⟩ : Shape).Idx → EReal)
    (b1 : (⟨2, ![32, 1024]⟩ : Shape).Idx → EReal) (W2 : (⟨3, ![32, 1024, 16]⟩ : Shape).Idx → EReal)
    (b2 : (⟨2, ![32, 16]⟩ : Shape).Idx → EReal) (r : Fin 128 → Fin 32) (b : Fin 128) (t : Fin 256) (o : Fin 16) :
    G x W1 b1 W2 b2 r (ix3 b t o) = out x W1 b1 W2 b2 (r b) b t o := rfl

end Cert.Spec

end
-- ==== Proof.KBody.lean ====
/-
  The kernel body of the category-routed head, as a value.

  At a grid point the body loads five blocks — the activations of one batch element [1 × 256 × 1536], one
  category's first weights [1 × 1536 × 1024] and first bias [1 × 1 × 1024], its second weights
  [1 × 1024 × 16] and second bias [1 × 1 × 16] — and stores one [1 × 256 × 16] block.  The one store covers
  the whole output block, so what the block holds afterwards is the stored value; and that value at
  (0, t, o) is

      (Σ_h  max ((Σ_d x[0,t,d] · w1[0,d,h]) + c1[0,0,h]) 0 · w2[0,h,o])  +  c2[0,0,o]

  on the extended reals: the two matrix products start from zero accumulators and so are plain sums, the
  narrowing of the hidden activations to a shorter float format is the identity there, and the
  biases are rows spread over the 256 token rows.
-/
import proofs.«416208_j50190987821416_2_alg».proof.Proof.Gen.KernelIdeal.Frame
import proofs.«416208_j50190987821416_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

variable {F : FTy → Type} [FloatOps F]

/-! ## The block after the body: the stored value -/

/-- Three zero offsets are the zero offset function. -/
theorem hz3 : (![0, 0, 0] : Fin 3 → Nat) = fun _ => 0 := funext fun a => by fin_cases a <;> rfl

/-- What the body leaves in the output's staging block is the value it stores, as a function of the five
    loaded blocks: the single store covers the block, and each load reads a whole staging buffer. -/
theorem piece (c : Dev nD) (i : grid0.Coords) (arg2 : Memref sig .tc .vmem S1x256x1536 .bf16) (harg2 : arg2.IsWhole) (arg3 : Memref sig .tc .vmem S1x1536x1024 .bf16) (harg3 : arg3.IsWhole) (arg4 : Memref sig .tc .vmem S1x1x1024 .f32) (harg4 : arg4.IsWhole) (arg5 : Memref sig .tc .vmem S1x1024x16 .bf16) (harg5 : arg5.IsWhole) (arg6 : Memref sig .tc .vmem S1x1x16 .f32) (harg6 : arg6.IsWhole) (arg7 : Memref sig .tc .vmem S1x256x16 .f32) (harg7 : arg7.IsWhole)
    (x0 : Vec F S1x256x1536 .bf16) (x1 : Vec F S1x1536x1024 .bf16) (x2 : Vec F S1x1x1024 .f32) (x3 : Vec F S1x1024x16 .bf16) (x4 : Vec F S1x1x16 .f32) (xt0 : TbBuf0 (F := F) c tbM0_0) :
    out0_A_5 c i arg2 harg2 arg3 harg3 arg4 harg4 arg5 harg5 arg6 harg6 arg7 harg7 x0 x1 x2 x3 x4 xt0 = k0_pay1 x0 x1 x2 x3 x4 := by
  unfold out0_A_5
  rw [View.read_writes_eq_canon _ _ _ (cover0_A_5 c i arg2 harg2 arg3 harg3 arg4 harg4 arg5 harg5 arg6 harg6 arg7 harg7 x0 x1 x2 x3 x4 xt0)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S1x256x1536) hz3, View.ld_unit_zero (S := S1x1536x1024) hz3, View.ld_unit_zero (S := S1x1x1024) hz3,
    View.ld_unit_zero (S := S1x1024x16) hz3, View.ld_unit_zero (S := S1x1x16) hz3]

/-! ## The two matrix products of the body, read at one element -/

theorem lhs1_0 (j : S256x1024.Idx) (q : dot_S256x1536_S1536x1024_S256x1024_1_0_0_1_n_n.contr.Idx) :
    (dot_S256x1536_S1536x1024_S256x1024_1_0_0_1_n_n.lhsIdx j q 0).val = (j 0).val := by
  unfold DotDims.lhsIdx
  rw [dif_neg (show ¬(0 : Fin S256x1536.rank) ∈ dot_S256x1536_S1536x1024_S256x1024_1_0_0_1_n_n.lhsBatch by decide), dif_pos (show (0 : Fin S256x1536.rank) ∈ dot_S256x1536_S1536x1024_S256x1024_1_0_0_1_n_n.lhsNonContracting by decide)]
  rfl
theorem lhs1_1 (j : S256x1024.Idx) (q : dot_S256x1536_S1536x1024_S256x1024_1_0_0_1_n_n.contr.Idx) :
    (dot_S256x1536_S1536x1024_S256x1024_1_0_0_1_n_n.lhsIdx j q 1).val = (q ⟨0, by decide⟩).val :=
  dot_S256x1536_S1536x1024_S256x1024_1_0_0_1_n_n.lhsIdx_val_of_single rfl j q
theorem rhs1_0 (j : S256x1024.Idx) (q : dot_S256x1536_S1536x1024_S256x1024_1_0_0_1_n_n.contr.Idx) :
    (dot_S256x1536_S1536x1024_S256x1024_1_0_0_1_n_n.rhsIdx j q 0).val = (q ⟨0, by decide⟩).val :=
  dot_S256x1536_S1536x1024_S256x1024_1_0_0_1_n_n.rhsIdx_val_of_single rfl j q
theorem rhs1_1 (j : S256x1024.Idx) (q : dot_S256x1536_S1536x1024_S256x1024_1_0_0_1_n_n.contr.Idx) :
    (dot_S256x1536_S1536x1024_S256x1024_1_0_0_1_n_n.rhsIdx j q 1).val = (j 1).val := by
  unfold DotDims.rhsIdx
  rw [dif_neg (show ¬(1 : Fin S1536x1024.rank) ∈ dot_S256x1536_S1536x1024_S256x1024_1_0_0_1_n_n.rhsBatch by decide), dif_pos (show (1 : Fin S1536x1024.rank) ∈ dot_S256x1536_S1536x1024_S256x1024_1_0_0_1_n_n.rhsNonContracting by decide)]
  rfl

/-- The first product into a zero accumulator, at (t, h): the sum over the 1536 contracted positions. -/
theorem matmul1_apply (l : FVec Ideal S256x1536 .bf16) (r : FVec Ideal S1536x1024 .bf16) (t : Fin 256) (h : Fin 1024) :
    matmul dot_S256x1536_S1536x1024_S256x1024_1_0_0_1_n_n none l r (constant (F := Ideal) S256x1024 .f32 0x00000000#32) (ix2 t h)
      = ∑ d : Fin 1536, l (ix2 t d) * r (ix2 d h) := by
  show FloatOps.matmul _ _ _ _ _ _ = _
  rw [Ideal.matmul_constant_zero_apply, ← Equiv.sum_comp (contrEquiv1 dot_S256x1536_S1536x1024_S256x1024_1_0_0_1_n_n 1536 rfl rfl).symm]
  refine Finset.sum_congr rfl fun k _ => ?_
  have hk := contrEquiv1_symm_val dot_S256x1536_S1536x1024_S256x1024_1_0_0_1_n_n 1536 rfl rfl k
  have el : dot_S256x1536_S1536x1024_S256x1024_1_0_0_1_n_n.lhsIdx (ix2 t h) ((contrEquiv1 dot_S256x1536_S1536x1024_S256x1024_1_0_0_1_n_n 1536 rfl rfl).symm k) = ix2 t k := funext fun a => Fin.ext (by
    match a with
    | ⟨0, _⟩ => exact lhs1_0 _ _
    | ⟨1, _⟩ => exact (lhs1_1 _ _).trans hk)
  have er : dot_S256x1536_S1536x1024_S256x1024_1_0_0_1_n_n.rhsIdx (ix2 t h) ((contrEquiv1 dot_S256x1536_S1536x1024_S256x1024_1_0_0_1_n_n 1536 rfl rfl).symm k) = ix2 k h := funext fun a => Fin.ext (by
    match a with
    | ⟨0, _⟩ => exact (rhs1_0 _ _).trans hk
    | ⟨1, _⟩ => exact rhs1_1 _ _)
  rw [el, er]

theorem lhs2_0 (j : S256x16.Idx) (q : dot_S256x1024_S1024x16_S256x16_1_0_0_1_n_n.contr.Idx) :
    (dot_S256x1024_S1024x16_S256x16_1_0_0_1_n_n.lhsIdx j q 0).val = (j 0).val := by
  unfold DotDims.lhsIdx
  rw [dif_neg (show ¬(0 : Fin S256x1024.rank) ∈ dot_S256x1024_S1024x16_S256x16_1_0_0_1_n_n.lhsBatch by decide), dif_pos (show (0 : Fin S256x1024.rank) ∈ dot_S256x1024_S1024x16_S256x16_1_0_0_1_n_n.lhsNonContracting by decide)]
  rfl
theorem lhs2_1 (j : S256x16.Idx) (q : dot_S256x1024_S1024x16_S256x16_1_0_0_1_n_n.contr.Idx) :
    (dot_S256x1024_S1024x16_S256x16_1_0_0_1_n_n.lhsIdx j q 1).val = (q ⟨0, by decide⟩).val :=
  dot_S256x1024_S1024x16_S256x16_1_0_0_1_n_n.lhsIdx_val_of_single rfl j q
theorem rhs2_0 (j : S256x16.Idx) (q : dot_S256x1024_S1024x16_S256x16_1_0_0_1_n_n.contr.Idx) :
    (dot_S256x1024_S1024x16_S256x16_1_0_0_1_n_n.rhsIdx j q 0).val = (q ⟨0, by decide⟩).val :=
  dot_S256x1024_S1024x16_S256x16_1_0_0_1_n_n.rhsIdx_val_of_single rfl j q
theorem rhs2_1 (j : S256x16.Idx) (q : dot_S256x1024_S1024x16_S256x16_1_0_0_1_n_n.contr.Idx) :
    (dot_S256x1024_S1024x16_S256x16_1_0_0_1_n_n.rhsIdx j q 1).val = (j 1).val := by
  unfold DotDims.rhsIdx
  rw [dif_neg (show ¬(1 : Fin S1024x16.rank) ∈ dot_S256x1024_S1024x16_S256x16_1_0_0_1_n_n.rhsBatch by decide), dif_pos (show (1 : Fin S1024x16.rank) ∈ dot_S256x1024_S1024x16_S256x16_1_0_0_1_n_n.rhsNonContracting by decide)]
  rfl

/-- The second product into a zero accumulator, at (t, o): the sum over the 1024 contracted positions. -/
theorem matmul2_apply (l : FVec Ideal S256x1024 .bf16) (r : FVec Ideal S1024x16 .bf16) (t : Fin 256) (o : Fin 16) :
    matmul dot_S256x1024_S1024x16_S256x16_1_0_0_1_n_n none l r (constant (F := Ideal) S256x16 .f32 0x00000000#32) (ix2 t o)
      = ∑ h : Fin 1024, l (ix2 t h) * r (ix2 h o) := by
  show FloatOps.matmul _ _ _ _ _ _ = _
  rw [Ideal.matmul_constant_zero_apply, ← Equiv.sum_comp (contrEquiv1 dot_S256x1024_S1024x16_S256x16_1_0_0_1_n_n 1024 rfl rfl).symm]
  refine Finset.sum_congr rfl fun k _ => ?_
  have hk := contrEquiv1_symm_val dot_S256x1024_S1024x16_S256x16_1_0_0_1_n_n 1024 rfl rfl k
  have el : dot_S256x1024_S1024x16_S256x16_1_0_0_1_n_n.lhsIdx (ix2 t o) ((contrEquiv1 dot_S256x1024_S1024x16_S256x16_1_0_0_1_n_n 1024 rfl rfl).symm k) = ix2 t k := funext fun a => Fin.ext (by
    match a with
    | ⟨0, _⟩ => exact lhs2_0 _ _
    | ⟨1, _⟩ => exact (lhs2_1 _ _).trans hk)
  have er : dot_S256x1024_S1024x16_S256x16_1_0_0_1_n_n.rhsIdx (ix2 t o) ((contrEquiv1 dot_S256x1024_S1024x16_S256x16_1_0_0_1_n_n 1024 rfl rfl).symm k) = ix2 k o := funext fun a => Fin.ext (by
    match a with
    | ⟨0, _⟩ => exact (rhs2_0 _ _).trans hk
    | ⟨1, _⟩ => exact rhs2_1 _ _)
  rw [el, er]

/-! ## The row vectors of biases, spread over the 256 token rows -/

/-- A [1 × n] row spread to [m × n] reads, at (t, h), the row's element h. -/
theorem bcastRow_apply {α : Type} {m n : ℕ} (x : (⟨2, ![1, n]⟩ : Shape).Idx → α) (hb : (⟨2, ![1, n]⟩ : Shape).Broadcasts ⟨2, ![m, n]⟩)
    (t : Fin m) (h : Fin n) : broadcastTo ⟨2, ![m, n]⟩ x hb (ix2 t h) = x (ix2 (0 : Fin 1) h) := by
  refine broadcastTo_apply x hb _ _ fun a => ?_
  match a with
  | ⟨0, _⟩ => rfl
  | ⟨1, _⟩ =>
    show h.val = if n = 1 then 0 else h.val
    split
    · have := h.isLt; omega
    · rfl

/-! ## The body's stored value at one element -/

/-- The value the body stores, at (0, t, o): the second layer's sum over the hidden units of the rectified first
    layer times the second weights, plus the second bias — every operand read from the point's blocks. -/
theorem pay_apply (x0 : Vec Ideal S1x256x1536 .bf16) (x1 : Vec Ideal S1x1536x1024 .bf16) (x2 : Vec Ideal S1x1x1024 .f32)
    (x3 : Vec Ideal S1x1024x16 .bf16) (x4 : Vec Ideal S1x1x16 .f32) (t : Fin 256) (o : Fin 16) :
    k0_pay1 (F := Ideal) x0 x1 x2 x3 x4 (ix3 (0 : Fin 1) t o)
      = (∑ h : Fin 1024, max ((∑ d : Fin 1536, (x0 (ix3 (0 : Fin 1) t d) : EReal) * (x1 (ix3 (0 : Fin 1) d h) : EReal))
            + (x2 (ix3 (0 : Fin 1) (0 : Fin 1) h) : EReal)) (Ideal.ofBits .f32 0x00000000#32) * (x3 (ix3 (0 : Fin 1) h o) : EReal))
          + (x4 (ix3 (0 : Fin 1) (0 : Fin 1) o) : EReal) := by
  unfold k0_pay1
  rw [shapeCast_ab_1ab_apply, addf_apply, matmul2_apply, bcastRow_apply, shapeCast_1ab_ab_apply]
  refine congrArg (· + _) (Finset.sum_congr rfl fun h _ => ?_)
  rw [truncf_apply, maximumf_apply, addf_apply, matmul1_apply, bcastRow_apply, shapeCast_1ab_ab_apply, shapeCast_1ab_ab_apply]
  simp only [shapeCast_1ab_ab_apply]
  rfl

end Cert.KernelIdeal.KValue

end
-- ==== Proof.KBlocks.lean ====
/-
  Where the kernel's windows sit at a grid point, and what its input blocks hold.

  The grid is the 128 batch elements; point t works on batch element t.  The activations' and the
  output's block index at t is (t, 0, 0); the four weight windows' is (cat t, 0, 0), where cat t is the
  category word of batch element t read as a natural number — the index maps read it from the prefetched
  table.  An element of a block sits in its array at block index × block size + its own coordinate, so:
  the activations' block at t is row t of the activations; each weight block is row cat t of its table.
  The arrays the windows stage are written by the host before the region from the arguments: a narrowing
  of the float format (the identity on the extended reals) for the activations and the weights, a cast
  [32 × n] → [32 × 1 × n] for the two biases.
-/
import proofs.«416208_j50190987821416_2_alg».proof.Proof.Gen.KernelIdeal.Frame
import proofs.«416208_j50190987821416_2_alg».proof.Proof.Spec
import proofs.«416208_j50190987821416_2_alg».proof.Proof.KBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

variable {F : FTy → Type} [FloatOps F]

variable (m : (ℓ : Loc nD τ sig) → Buf (Elt Ideal) ℓ)

/-- The grid is the 128 batch elements: point t has coordinate t. -/
theorem coords_val : ∀ t : Fin grid0.N, ((grid0.coords t) 0).val = t.val := by decide +kernel

/-- The category word of batch element b, as the region finds it. -/
abbrev catw (b : Fin 128) : BitVec 32 := m (((0 : Dev nD) : Thread nD τ).loc main_arg5) (ix1 b)

theorem tbl_eq (x : S128.Idx) : tbl m 0 x = m (((0 : Dev nD) : Thread nD τ).loc main_arg5) x := by
  unfold tbl
  exact congrFun (V_main_arg5 m 0) x

theorem tr1 (i : grid0.Coords) : cc0_transform_1 k0_off1_inb numel1_S1 (tbl m) i = ![(catw m ⟨(i 0).val, (i 0).isLt⟩).toNat, 0, 0] := by
  unfold cc0_transform_1
  dsimp only
  have hlt : (i 0).val < 128 := (i 0).isLt
  have hw : (tbl m).at 0 (Rect.unit (s := S128) ![BitVec.toNat (Scalar.indexCast (BitVec.ofNat 32 (i 0).val))] S1.size (k0_off1_inb i)) numel1_S1
      = catw m ⟨(i 0).val, (i 0).isLt⟩ := by
    refine (tbl_eq m _).trans (congrArg _ (funext fun a => Fin.ext ?_))
    match a with
    | ⟨0, _⟩ =>
      show BitVec.toNat (Scalar.indexCast (BitVec.ofNat 32 (i 0).val)) + 1 * (Shape.Idx.first (s := S1) (numel1_S1.symm ▸ Nat.one_pos) (0 : Fin 1)).val = (i 0).val
      have h0 : (Shape.Idx.first (s := S1) (numel1_S1.symm ▸ Nat.one_pos) (0 : Fin 1)).val = 0 := by
        have := (Shape.Idx.first (s := S1) (numel1_S1.symm ▸ Nat.one_pos) (0 : Fin 1)).isLt
        have e : S1.size (0 : Fin 1) = 1 := by decide
        omega
      have h1 : BitVec.toNat (Scalar.indexCast (BitVec.ofNat 32 (i 0).val)) = (i 0).val := by
        show (BitVec.ofNat 32 (i 0).val).toNat = _
        rw [BitVec.toNat_ofNat]; omega
      rw [h1]; omega
  rw [hw]
  rfl

theorem tr2 (i : grid0.Coords) : cc0_transform_2 k0_off1_inb numel1_S1 (tbl m) i = ![(catw m ⟨(i 0).val, (i 0).isLt⟩).toNat, 0, 0] := by
  unfold cc0_transform_2
  dsimp only
  have hlt : (i 0).val < 128 := (i 0).isLt
  have hw : (tbl m).at 0 (Rect.unit (s := S128) ![BitVec.toNat (Scalar.indexCast (BitVec.ofNat 32 (i 0).val))] S1.size (k0_off1_inb i)) numel1_S1
      = catw m ⟨(i 0).val, (i 0).isLt⟩ := by
    refine (tbl_eq m _).trans (congrArg _ (funext fun a => Fin.ext ?_))
    match a with
    | ⟨0, _⟩ =>
      show BitVec.toNat (Scalar.indexCast (BitVec.ofNat 32 (i 0).val)) + 1 * (Shape.Idx.first (s := S1) (numel1_S1.symm ▸ Nat.one_pos) (0 : Fin 1)).val = (i 0).val
      have h0 : (Shape.Idx.first (s := S1) (numel1_S1.symm ▸ Nat.one_pos) (0 : Fin 1)).val = 0 := by
        have := (Shape.Idx.first (s := S1) (numel1_S1.symm ▸ Nat.one_pos) (0 : Fin 1)).isLt
        have e : S1.size (0 : Fin 1) = 1 := by decide
        omega
      have h1 : BitVec.toNat (Scalar.indexCast (BitVec.ofNat 32 (i 0).val)) = (i 0).val := by
        show (BitVec.ofNat 32 (i 0).val).toNat = _
        rw [BitVec.toNat_ofNat]; omega
      rw [h1]; omega
  rw [hw]
  rfl

theorem tr3 (i : grid0.Coords) : cc0_transform_3 k0_off1_inb numel1_S1 (tbl m) i = ![(catw m ⟨(i 0).val, (i 0).isLt⟩).toNat, 0, 0] := by
  unfold cc0_transform_3
  dsimp only
  have hlt : (i 0).val < 128 := (i 0).isLt
  have hw : (tbl m).at 0 (Rect.unit (s := S128) ![BitVec.toNat (Scalar.indexCast (BitVec.ofNat 32 (i 0).val))] S1.size (k0_off1_inb i)) numel1_S1
      = catw m ⟨(i 0).val, (i 0).isLt⟩ := by
    refine (tbl_eq m _).trans (congrArg _ (funext fun a => Fin.ext ?_))
    match a with
    | ⟨0, _⟩ =>
      show BitVec.toNat (Scalar.indexCast (BitVec.ofNat 32 (i 0).val)) + 1 * (Shape.Idx.first (s := S1) (numel1_S1.symm ▸ Nat.one_pos) (0 : Fin 1)).val = (i 0).val
      have h0 : (Shape.Idx.first (s := S1) (numel1_S1.symm ▸ Nat.one_pos) (0 : Fin 1)).val = 0 := by
        have := (Shape.Idx.first (s := S1) (numel1_S1.symm ▸ Nat.one_pos) (0 : Fin 1)).isLt
        have e : S1.size (0 : Fin 1) = 1 := by decide
        omega
      have h1 : BitVec.toNat (Scalar.indexCast (BitVec.ofNat 32 (i 0).val)) = (i 0).val := by
        show (BitVec.ofNat 32 (i 0).val).toNat = _
        rw [BitVec.toNat_ofNat]; omega
      rw [h1]; omega
  rw [hw]
  rfl

theorem tr4 (i : grid0.Coords) : cc0_transform_4 k0_off1_inb numel1_S1 (tbl m) i = ![(catw m ⟨(i 0).val, (i 0).isLt⟩).toNat, 0, 0] := by
  unfold cc0_transform_4
  dsimp only
  have hlt : (i 0).val < 128 := (i 0).isLt
  have hw : (tbl m).at 0 (Rect.unit (s := S128) ![BitVec.toNat (Scalar.indexCast (BitVec.ofNat 32 (i 0).val))] S1.size (k0_off1_inb i)) numel1_S1
      = catw m ⟨(i 0).val, (i 0).isLt⟩ := by
    refine (tbl_eq m _).trans (congrArg _ (funext fun a => Fin.ext ?_))
    match a with
    | ⟨0, _⟩ =>
      show BitVec.toNat (Scalar.indexCast (BitVec.ofNat 32 (i 0).val)) + 1 * (Shape.Idx.first (s := S1) (numel1_S1.symm ▸ Nat.one_pos) (0 : Fin 1)).val = (i 0).val
      have h0 : (Shape.Idx.first (s := S1) (numel1_S1.symm ▸ Nat.one_pos) (0 : Fin 1)).val = 0 := by
        have := (Shape.Idx.first (s := S1) (numel1_S1.symm ▸ Nat.one_pos) (0 : Fin 1)).isLt
        have e : S1.size (0 : Fin 1) = 1 := by decide
        omega
      have h1 : BitVec.toNat (Scalar.indexCast (BitVec.ofNat 32 (i 0).val)) = (i 0).val := by
        show (BitVec.ofNat 32 (i 0).val).toNat = _
        rw [BitVec.toNat_ofNat]; omega
      rw [h1]; omega
  rw [hw]
  rfl

variable (hO : Ok m)

/-! ## The windows' block indices at a grid point -/

theorem tr0 (i : grid0.Coords) : cc0_transform_0 i = ![(i 0).val, 0, 0] := by
  unfold cc0_transform_0
  dsimp only
  have hlt : (i 0).val < 128 := (i 0).isLt
  have h1 : (BitVec.ofNat 32 (i 0).val).toNat = (i 0).val := by rw [BitVec.toNat_ofNat]; omega
  rw [h1]; rfl

theorem tr5 (i : grid0.Coords) : cc0_transform_5 i = ![(i 0).val, 0, 0] := by
  unfold cc0_transform_5
  dsimp only
  have hlt : (i 0).val < 128 := (i 0).isLt
  have h1 : (BitVec.ofNat 32 (i 0).val).toNat = (i 0).val := by rw [BitVec.toNat_ofNat]; omega
  rw [h1]; rfl

/-- The batch element a grid point works on. -/
abbrev bat (t : Fin (cfgM m hO).N) : Fin 128 := ⟨t.val, t.isLt⟩

theorem coords_bat (t : Fin (cfgM m hO).N) : (⟨((grid0.coords t) 0).val, ((grid0.coords t) 0).isLt⟩ : Fin 128) = bat m hO t :=
  Fin.ext (coords_val t)

theorem idx0 (t : Fin (cfgM m hO).N) : ((cfgM m hO).win 0).index t = ![t.val, 0, 0] := by
  show cc0_transform_0 (grid0.coords t) = _
  rw [tr0, coords_val]
theorem idx5 (t : Fin (cfgM m hO).N) : ((cfgM m hO).win 5).index t = ![t.val, 0, 0] := by
  show cc0_transform_5 (grid0.coords t) = _
  rw [tr5, coords_val]
theorem idx1 (t : Fin (cfgM m hO).N) : ((cfgM m hO).win 1).index t = ![(catw m (bat m hO t)).toNat, 0, 0] := by
  show cc0_transform_1 k0_off1_inb numel1_S1 (tbl m) (grid0.coords t) = _
  rw [tr1, coords_bat]
theorem idx2 (t : Fin (cfgM m hO).N) : ((cfgM m hO).win 2).index t = ![(catw m (bat m hO t)).toNat, 0, 0] := by
  show cc0_transform_2 k0_off1_inb numel1_S1 (tbl m) (grid0.coords t) = _
  rw [tr2, coords_bat]
theorem idx3 (t : Fin (cfgM m hO).N) : ((cfgM m hO).win 3).index t = ![(catw m (bat m hO t)).toNat, 0, 0] := by
  show cc0_transform_3 k0_off1_inb numel1_S1 (tbl m) (grid0.coords t) = _
  rw [tr3, coords_bat]
theorem idx4 (t : Fin (cfgM m hO).N) : ((cfgM m hO).win 4).index t = ![(catw m (bat m hO t)).toNat, 0, 0] := by
  show cc0_transform_4 k0_off1_inb numel1_S1 (tbl m) (grid0.coords t) = _
  rw [tr4, coords_bat]

/-- An [a × b] array cast to [a × 1 × b] reads, at (i, u, j), the operand at (i, j). -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## The arrays the host writes before the region -/

theorem V_v0 (c : Dev nD) (i : S128x256x1536.Idx) :
    (V m c main_v0 : S128x256x1536.Idx → EReal) i = m ((c : Thread nD τ).loc main_arg0) i := by
  have e : (V m c main_v0 : S128x256x1536.Idx → EReal) = truncf (F := Ideal) .bf16 (m ((c : Thread nD τ).loc main_arg0)) bitsLt_bf16_f32 := by
    dsimp only [V, hostOps0]; after_results <;> rfl
  rw [e]; rfl

theorem V_v3 (c : Dev nD) (q : Fin 32) (h : Fin 1024) :
    (V m c main_v3 : S32x1x1024.Idx → EReal) (ix3 q (0 : Fin 1) h) = m ((c : Thread nD τ).loc main_arg2) (ix2 q h) := by
  have e : (V m c main_v3 : S32x1x1024.Idx → EReal) = shapeCast S32x1x1024 (m ((c : Thread nD τ).loc main_arg2)) shapeCasts_S32x1024_S32x1x1024 := by
    dsimp only [V, hostOps0]; after_results <;> rfl
  rw [e]
  exact shapeCast_ab_a1b_apply _ _ q 0 h

theorem blk0 (c : Dev nD) (t : Fin (cfgM m hO).N) (p : Fin 256) (d : Fin 1536) :
    (iblk m hO c 0 t (ix3 (0 : Fin 1) p d) : EReal) = m ((c : Thread nD τ).loc main_arg0) (ix3 (⟨t.val, t.isLt⟩ : Fin 128) p d) := by
  show (V m c main_v0 : S128x256x1536.Idx → EReal) ((((cfgM m hO).win 0).blk t).view.emb (ix3 (0 : Fin 1) p d)) = _
  refine (V_v0 m c _).trans (congrArg _ (funext fun a => Fin.ext ?_))
  match a with
  | ⟨0, _⟩ =>
    show ((cfgM m hO).win 0).index t (0 : Fin 3) * 1 + 1 * 0 = t.val
    rw [idx0]; show t.val * 1 + 1 * 0 = t.val; omega
  | ⟨1, _⟩ =>
    show ((cfgM m hO).win 0).index t (1 : Fin 3) * 256 + 1 * p.val = p.val
    rw [idx0]; show 0 * 256 + 1 * p.val = p.val; omega
  | ⟨2, _⟩ =>
    show ((cfgM m hO).win 0).index t (2 : Fin 3) * 1536 + 1 * d.val = d.val
    rw [idx0]; show 0 * 1536 + 1 * d.val = d.val; omega

theorem V_v1 (c : Dev nD) (i : S32x1536x1024.Idx) :
    (V m c main_v1 : S32x1536x1024.Idx → EReal) i = m ((c : Thread nD τ).loc main_arg1) i := by
  have e : (V m c main_v1 : S32x1536x1024.Idx → EReal) = truncf (F := Ideal) .bf16 (m ((c : Thread nD τ).loc main_arg1)) bitsLt_bf16_f32 := by
    dsimp only [V, hostOps0]; after_results <;> rfl
  rw [e]; rfl

theorem V_v2 (c : Dev nD) (i : S32x1024x16.Idx) :
    (V m c main_v2 : S32x1024x16.Idx → EReal) i = m ((c : Thread nD τ).loc main_arg3) i := by
  have e : (V m c main_v2 : S32x1024x16.Idx → EReal) = truncf (F := Ideal) .bf16 (m ((c : Thread nD τ).loc main_arg3)) bitsLt_bf16_f32 := by
    dsimp only [V, hostOps0]; after_results <;> rfl
  rw [e]; rfl

theorem V_v4 (c : Dev nD) (q : Fin 32) (o : Fin 16) :
    (V m c main_v4 : S32x1x16.Idx → EReal) (ix3 q (0 : Fin 1) o) = m ((c : Thread nD τ).loc main_arg4) (ix2 q o) := by
  have e : (V m c main_v4 : S32x1x16.Idx → EReal) = shapeCast S32x1x16 (m ((c : Thread nD τ).loc main_arg4)) shapeCasts_S32x16_S32x1x16 := by
    dsimp only [V, hostOps0]; after_results <;> rfl
  rw [e]
  exact shapeCast_ab_a1b_apply _ _ q 0 o

/-! ## The input blocks at a grid point, read at one element -/

theorem blk1 (c : Dev nD) (t : Fin (cfgM m hO).N) (q : Fin 32) (hq : q.val = (catw m (bat m hO t)).toNat) (d : Fin 1536) (h : Fin 1024) :
    (iblk m hO c 1 t (ix3 (0 : Fin 1) d h) : EReal) = m ((c : Thread nD τ).loc main_arg1) (ix3 q d h) := by
  show (V m c main_v1 : S32x1536x1024.Idx → EReal) ((((cfgM m hO).win 1).blk t).view.emb (ix3 (0 : Fin 1) d h)) = _
  refine (V_v1 m c _).trans (congrArg _ (funext fun a => Fin.ext ?_))
  match a with
  | ⟨0, _⟩ =>
    show ((cfgM m hO).win 1).index t (0 : Fin 3) * 1 + 1 * 0 = q.val
    rw [idx1, hq]; show (catw m (bat m hO t)).toNat * 1 + 1 * 0 = _; omega
  | ⟨1, _⟩ =>
    show ((cfgM m hO).win 1).index t (1 : Fin 3) * 1536 + 1 * d.val = d.val
    rw [idx1]; show 0 * 1536 + 1 * d.val = d.val; omega
  | ⟨2, _⟩ =>
    show ((cfgM m hO).win 1).index t (2 : Fin 3) * 1024 + 1 * h.val = h.val
    rw [idx1]; show 0 * 1024 + 1 * h.val = h.val; omega

theorem blk2 (c : Dev nD) (t : Fin (cfgM m hO).N) (q : Fin 32) (hq : q.val = (catw m (bat m hO t)).toNat) (h : Fin 1024) :
    (iblk m hO c 2 t (ix3 (0 : Fin 1) (0 : Fin 1) h) : EReal) = m ((c : Thread nD τ).loc main_arg2) (ix2 q h) := by
  show (V m c main_v3 : S32x1x1024.Idx → EReal) ((((cfgM m hO).win 2).blk t).view.emb (ix3 (0 : Fin 1) (0 : Fin 1) h)) = _
  refine Eq.trans (congrArg _ (funext fun a => Fin.ext ?_)) (V_v3 m c q h)
  match a with
  | ⟨0, _⟩ =>
    show ((cfgM m hO).win 2).index t (0 : Fin 3) * 1 + 1 * 0 = q.val
    rw [idx2, hq]; show (catw m (bat m hO t)).toNat * 1 + 1 * 0 = _; omega
  | ⟨1, _⟩ =>
    show ((cfgM m hO).win 2).index t (1 : Fin 3) * 1 + 1 * 0 = 0
    rw [idx2]; rfl
  | ⟨2, _⟩ =>
    show ((cfgM m hO).win 2).index t (2 : Fin 3) * 1024 + 1 * h.val = h.val
    rw [idx2]; show 0 * 1024 + 1 * h.val = h.val; omega

theorem blk3 (c : Dev nD) (t : Fin (cfgM m hO).N) (q : Fin 32) (hq : q.val = (catw m (bat m hO t)).toNat) (h : Fin 1024) (o : Fin 16) :
    (iblk m hO c 3 t (ix3 (0 : Fin 1) h o) : EReal) = m ((c : Thread nD τ).loc main_arg3) (ix3 q h o) := by
  show (V m c main_v2 : S32x1024x16.Idx → EReal) ((((cfgM m hO).win 3).blk t).view.emb (ix3 (0 : Fin 1) h o)) = _
  refine (V_v2 m c _).trans (congrArg _ (funext fun a => Fin.ext ?_))
  match a with
  | ⟨0, _⟩ =>
    show ((cfgM m hO).win 3).index t (0 : Fin 3) * 1 + 1 * 0 = q.val
    rw [idx3, hq]; show (catw m (bat m hO t)).toNat * 1 + 1 * 0 = _; omega
  | ⟨1, _⟩ =>
    show ((cfgM m hO).win 3).index t (1 : Fin 3) * 1024 + 1 * h.val = h.val
    rw [idx3]; show 0 * 1024 + 1 * h.val = h.val; omega
  | ⟨2, _⟩ =>
    show ((cfgM m hO).win 3).index t (2 : Fin 3) * 16 + 1 * o.val = o.val
    rw [idx3]; show 0 * 16 + 1 * o.val = o.val; omega

theorem blk4 (c : Dev nD) (t : Fin (cfgM m hO).N) (q : Fin 32) (hq : q.val = (catw m (bat m hO t)).toNat) (o : Fin 16) :
    (iblk m hO c 4 t (ix3 (0 : Fin 1) (0 : Fin 1) o) : EReal) = m ((c : Thread nD τ).loc main_arg4) (ix2 q o) := by
  show (V m c main_v4 : S32x1x16.Idx → EReal) ((((cfgM m hO).win 4).blk t).view.emb (ix3 (0 : Fin 1) (0 : Fin 1) o)) = _
  refine Eq.trans (congrArg _ (funext fun a => Fin.ext ?_)) (V_v4 m c q o)
  match a with
  | ⟨0, _⟩ =>
    show ((cfgM m hO).win 4).index t (0 : Fin 3) * 1 + 1 * 0 = q.val
    rw [idx4, hq]; show (catw m (bat m hO t)).toNat * 1 + 1 * 0 = _; omega
  | ⟨1, _⟩ =>
    show ((cfgM m hO).win 4).index t (1 : Fin 3) * 1 + 1 * 0 = 0
    rw [idx4]; rfl
  | ⟨2, _⟩ =>
    show ((cfgM m hO).win 4).index t (2 : Fin 3) * 16 + 1 * o.val = o.val
    rw [idx4]; show 0 * 16 + 1 * o.val = o.val; omega

end Cert.KernelIdeal.KValue
end
-- ==== Proof.KRun.lean ====
/-
  The idealized kernel program's result is the specification's array.

  At grid point t the five loaded blocks are row t of the activations and row cat t of each weight table
  (cat t the category word of batch element t, below 32 by hypothesis), so the value the body stores is
  the head's output for batch element t with the weight set cat t: point t writes back block t of the
  specification's array.  The output's blocks, one per batch element, cover the whole output array, so
  after the run the array is the specification's array; the arguments are left as they were.
-/
import proofs.«416208_j50190987821416_2_alg».proof.Proof.Gen.KernelIdeal.Frame
import proofs.«416208_j50190987821416_2_alg».proof.Proof.Spec
import proofs.«416208_j50190987821416_2_alg».proof.Proof.KBody
import proofs.«416208_j50190987821416_2_alg».proof.Proof.KBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

variable {F : FTy → Type} [FloatOps F]

/-! ## One grid point's stored value, as the head's output for that batch element -/

/-- If the five loaded blocks are row b of the activations and row q of each weight table, the value the body
    stores at (0, t, o) is the head's output for batch element b, token t, output unit o with the weight set q. -/
theorem point_eq (X0 : Vec Ideal S1x256x1536 .bf16) (X1 : Vec Ideal S1x1536x1024 .bf16) (X2 : Vec Ideal S1x1x1024 .f32)
    (X3 : Vec Ideal S1x1024x16 .bf16) (X4 : Vec Ideal S1x1x16 .f32)
    (A0 : (⟨3, ![128, 256, 1536]⟩ : Shape).Idx → EReal) (A1 : (⟨3, ![32, 1536, 1024]⟩ : Shape).Idx → EReal)
    (A2 : (⟨2, ![32, 1024]⟩ : Shape).Idx → EReal) (A3 : (⟨3, ![32, 1024, 16]⟩ : Shape).Idx → EReal)
    (A4 : (⟨2, ![32, 16]⟩ : Shape).Idx → EReal) (b : Fin 128) (q : Fin 32)
    (h0 : ∀ (p : Fin 256) (d : Fin 1536), (X0 (ix3 (0 : Fin 1) p d) : EReal) = A0 (ix3 b p d))
    (h1 : ∀ (d : Fin 1536) (h : Fin 1024), (X1 (ix3 (0 : Fin 1) d h) : EReal) = A1 (ix3 q d h))
    (h2 : ∀ h : Fin 1024, (X2 (ix3 (0 : Fin 1) (0 : Fin 1) h) : EReal) = A2 (ix2 q h))
    (h3 : ∀ (h : Fin 1024) (o : Fin 16), (X3 (ix3 (0 : Fin 1) h o) : EReal) = A3 (ix3 q h o))
    (h4 : ∀ o : Fin 16, (X4 (ix3 (0 : Fin 1) (0 : Fin 1) o) : EReal) = A4 (ix2 q o))
    (y : S1x256x16.Idx) :
    (k0_pay1 (F := Ideal) X0 X1 X2 X3 X4 y : EReal)
      = Cert.Spec.out A0 A1 A2 A3 A4 q b ⟨(y 1).val, (y 1).isLt⟩ ⟨(y 2).val, (y 2).isLt⟩ := by
  obtain ⟨u, p, o, rfl⟩ : ∃ (u : Fin 1) (p : Fin 256) (o : Fin 16), y = ix3 u p o := ⟨y 0, y 1, y 2, eq_ix3 y⟩
  obtain rfl : u = 0 := Subsingleton.elim _ _
  rw [pay_apply]
  unfold Cert.Spec.out Cert.Spec.hidden
  simp only [h0, h1, h2, h3, h4]

/-- The specification's array at an index with coordinates (b, p, o). -/
theorem G_of_coords (A0 : (⟨3, ![128, 256, 1536]⟩ : Shape).Idx → EReal) (A1 : (⟨3, ![32, 1536, 1024]⟩ : Shape).Idx → EReal)
    (A2 : (⟨2, ![32, 1024]⟩ : Shape).Idx → EReal) (A3 : (⟨3, ![32, 1024, 16]⟩ : Shape).Idx → EReal)
    (A4 : (⟨2, ![32, 16]⟩ : Shape).Idx → EReal) (r : Fin 128 → Fin 32) (i : (⟨3, ![128, 256, 16]⟩ : Shape).Idx)
    (b : Fin 128) (p : Fin 256) (o : Fin 16) (e0 : (i 0).val = b.val) (e1 : (i 1).val = p.val) (e2 : (i 2).val = o.val) :
    Cert.Spec.G A0 A1 A2 A3 A4 r i = Cert.Spec.out A0 A1 A2 A3 A4 (r b) b p o := by
  have hb : (⟨(i 0).val, (i 0).isLt⟩ : Fin 128) = b := Fin.ext e0
  have hp : (⟨(i 1).val, (i 1).isLt⟩ : Fin 256) = p := Fin.ext e1
  have ho : (⟨(i 2).val, (i 2).isLt⟩ : Fin 16) = o := Fin.ext e2
  unfold Cert.Spec.G
  rw [hb, hp, ho]

variable (m : (ℓ : Loc nD τ sig) → Buf (Elt Ideal) ℓ) (ρ : Dev nD → PrngReg) (hO : Ok m)
variable (hr : ∀ b : Fin 128, (catw m b).toNat < 32)

/-- The specification's array of the argument arrays on core c, the weight set of batch element b the one its
    category word names. -/
abbrev Gm (c : Dev nD) : S128x256x16.Idx → EReal :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (Cert.Spec.row (m (((0 : Dev nD) : Thread nD τ).loc main_arg5)) hr)

/-! ## What a grid point writes back -/

/-- What point t writes back is block t of the specification's array. -/
theorem flushed_eq (c : Dev nD) (t : Fin (cfgM m hO).N) :
    (dats m hO 0 c).flushed 5 t = (((cfgM m hO).win 5).blk t).view.read (Elt Ideal) (Gm m hr c) := by
  show ((cfgM m hO).win 5).cut (grid0.coords t) ((dats m hO 0 c).after 5 t) = _
  rw [after0_5]
  unfold outsAt0
  have hp := piece (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0)
  refine funext fun (j : S1x256x16.Idx) => ?_
  refine (congrFun hp j).trans ?_
  refine (point_eq (iblk m hO c 0 t) (iblk m hO c 1 t) (iblk m hO c 2 t) (iblk m hO c 3 t) (iblk m hO c 4 t)
    (m ((c : Thread nD τ).loc main_arg0)) (m ((c : Thread nD τ).loc main_arg1)) (m ((c : Thread nD τ).loc main_arg2))
    (m ((c : Thread nD τ).loc main_arg3)) (m ((c : Thread nD τ).loc main_arg4))
    (bat m hO t) (Cert.Spec.row (m (((0 : Dev nD) : Thread nD τ).loc main_arg5)) hr (bat m hO t))
    (fun p d => blk0 m hO c t p d) (fun d h => blk1 m hO c t _ rfl d h) (fun h => blk2 m hO c t _ rfl h)
    (fun h o => blk3 m hO c t _ rfl h o) (fun o => blk4 m hO c t _ rfl o) j).trans ?_
  show _ = Gm m hr c ((((cfgM m hO).win 5).blk t).view.emb j)
  refine (G_of_coords _ _ _ _ _ _ _ (bat m hO t) ⟨(j 1).val, (j 1).isLt⟩ ⟨(j 2).val, (j 2).isLt⟩ ?_ ?_ ?_).symm
  · show ((cfgM m hO).win 5).index t (0 : Fin 3) * 1 + 1 * (j 0).val = t.val
    have hj : (j 0).val < 1 := (j 0).isLt
    rw [idx5]; show t.val * 1 + 1 * (j 0).val = t.val; omega
  · show ((cfgM m hO).win 5).index t (1 : Fin 3) * 256 + 1 * (j 1).val = (j 1).val
    rw [idx5]; show 0 * 256 + 1 * (j 1).val = (j 1).val; omega
  · show ((cfgM m hO).win 5).index t (2 : Fin 3) * 16 + 1 * (j 2).val = (j 2).val
    rw [idx5]; show 0 * 16 + 1 * (j 2).val = (j 2).val; omega

/-! ## The output array after the run -/

/-- Every index of the output array lies in the block of the point its batch coordinate names. -/
theorem cover5 (i : S128x256x16.Idx) :
    ∃ t : Fin (cfgM m hO).N, ((cfgM m hO).win 5).flush t = true ∧ i ∈ (((cfgM m hO).win 5).blk t).view.set := by
  have h0 : (i 0).val < 128 := (i 0).isLt
  have h1 : (i 1).val < 256 := (i 1).isLt
  have h2 : (i 2).val < 16 := (i 2).isLt
  obtain ⟨t0, ht0⟩ : ∃ t0 : Fin (cfgM m hO).N, t0.val = (i 0).val := ⟨⟨(i 0).val, h0⟩, rfl⟩
  refine ⟨t0, flush0_5 (adm m hO) _, ?_⟩
  have e : (((cfgM m hO).win 5).blk t0).view.emb (ix3 (0 : Fin 1) (⟨(i 1).val, h1⟩ : Fin 256) (⟨(i 2).val, h2⟩ : Fin 16) : S1x256x16.Idx) = i :=
    funext fun a => Fin.ext (by
      match a with
      | ⟨0, _⟩ =>
        show ((cfgM m hO).win 5).index t0 (0 : Fin 3) * 1 + 1 * 0 = (i 0).val
        rw [idx5]; show t0.val * 1 + 1 * 0 = (i 0).val; omega
      | ⟨1, _⟩ =>
        show ((cfgM m hO).win 5).index t0 (1 : Fin 3) * 256 + 1 * (i 1).val = (i 1).val
        rw [idx5]; show 0 * 256 + 1 * (i 1).val = (i 1).val; omega
      | ⟨2, _⟩ =>
        show ((cfgM m hO).win 5).index t0 (2 : Fin 3) * 16 + 1 * (i 2).val = (i 2).val
        rw [idx5]; show 0 * 16 + 1 * (i 2).val = (i 2).val; omega)
  exact e ▸ View.emb_mem_set _ _

/-- After the run the output array is the specification's array. -/
theorem final5 (c : Dev nD) : (dats m hO 0 c).arrAt 5 (cfgM m hO).N = Gm m hr c :=
  (dats m hO 0 c).arrAt_eq_of_cover 5 (Gm m hr c) (fun t _ => flushed_eq m hO hr c t) (cover5 m hO)

/-! ## The run -/

include hO in
/-- Every weakly fair execution of the idealized kernel program terminates with its result array at the
    specification's array of the argument arrays, the arguments unchanged. -/
theorem run : θ_run defs (onTc (τ := τ) (main (F := Ideal))) ⟨m, fun _ => 0, ρ⟩ fun r => ∀ c : Dev nD,
      r.2.mem ((c.tc : Thread nD τ).loc main_v5) = Gm m hr c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 5).trans (final5 m hO hr c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO)

end Cert.KernelIdeal.KValue
end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibGatherRows3.lean ====
/-
  The gather of whole slabs of a rank-3 operand, read at one element.

  An [n × f × g] operand is gathered by an [e × 1] column of start indices (the index vector on axis 1, its
  one component sent to operand axis 0, that axis collapsed, no batching axes) into an [e × f × g] result
  whose axes 1 and 2 are offset axes of full width.  Result element (p, c, c') reads operand slab
  idx[p, 0], read as a signed integer and clamped into the operand, at (c, c').  When that integer is a
  slab number k < n the clamp does nothing, and the result element is the operand's element (k, c, c').

  The statement takes the dimension numbers' fields as hypotheses, so it applies to any record with those
  fields, at any sizes and any width of the index words.
-/
import proofs.«416208_j50190987821416_2_alg».proof.Proof.LibIndexMaps

noncomputable section

namespace Cert.LibGatherRows3

open Idealize.ShloMosaic Idealize.ShloMosaic.ValueIdx Cert.Gcn.IndexMaps

/-! ## Axes and coordinates -/

/-- A position on an axis of three places is the first, the second or the third. -/
theorem fin3_cases (a : Fin 3) : a = 0 ∨ a = 1 ∨ a = 2 := by
  rcases a with ⟨v, hv⟩
  rcases (by omega : v = 0 ∨ v = 1 ∨ v = 2) with rfl | rfl | rfl
  · exact Or.inl rfl
  · exact Or.inr (Or.inl rfl)
  · exact Or.inr (Or.inr rfl)

/-- Of three axes, the ones kept beside the second and the third are the first alone. -/
theorem kept_snd_thd {s : Shape} (hr : s.rank = 3) (axes : List (Fin s.rank))
    (h1 : ∃ a ∈ axes, a.val = 1) (h2 : ∃ a ∈ axes, a.val = 2) : ∀ x ∈ s.kept axes, x.val = 0 := by
  intro x hx
  rw [mem_kept] at hx
  obtain ⟨a, ha, hav⟩ := h1
  obtain ⟨b, hb, hbv⟩ := h2
  have hxa : x.val ≠ a.val := fun h => hx ((Fin.ext h : x = a) ▸ ha)
  have hxb : x.val ≠ b.val := fun h => hx ((Fin.ext h : x = b) ▸ hb)
  have := x.isLt
  omega

/-- A coordinate of a rank-3 index on the axis numbered 0 is its first coordinate. -/
theorem coord3_of_val0 {e f g : ℕ} (j : (⟨3, ![e, f, g]⟩ : Shape).Idx) (X : Fin 3) (hX : X.val = 0) :
    (j X).val = (j 0).val := by
  have : X = 0 := Fin.ext hX
  subst this; rfl

/-- A coordinate of a rank-3 index on the axis numbered 1 is its second coordinate. -/
theorem coord3_of_val1 {e f g : ℕ} (j : (⟨3, ![e, f, g]⟩ : Shape).Idx) (X : Fin 3) (hX : X.val = 1) :
    (j X).val = (j 1).val := by
  have : X = 1 := Fin.ext hX
  subst this; rfl

/-- A coordinate of a rank-3 index on the axis numbered 2 is its third coordinate. -/
theorem coord3_of_val2 {e f g : ℕ} (j : (⟨3, ![e, f, g]⟩ : Shape).Idx) (X : Fin 3) (hX : X.val = 2) :
    (j X).val = (j 2).val := by
  have : X = 2 := Fin.ext hX
  subst this; rfl

/-! ## The gather with two offset axes -/

/-- Result element (p, c, c') reads its one start-index component at (p, 0). -/
theorem gather3_siIdx {s : Shape} {e f g : ℕ} (d : GatherDims s ⟨2, ![e, 1]⟩ ⟨3, ![e, f, g]⟩)
    (hod : d.offsetDims = [1, 2]) (hivd : d.indexVectorDim = 1) (j : (⟨3, ![e, f, g]⟩ : Shape).Idx)
    (c : Fin d.startIndexMap.length) :
    d.siIdx j c = ix2 (n0 := e) (n1 := 1) (j 0) 0 := by
  have hbd : ∀ x ∈ d.batchDims, x.val = 0 :=
    kept_snd_thd rfl _ (by rw [hod]; exact ⟨1, by simp, rfl⟩) (by rw [hod]; exact ⟨2, by simp, rfl⟩)
  funext b
  match b with
  | ⟨0, _⟩ =>
    unfold GatherDims.siIdx
    rw [dif_neg (by rw [hivd]; simp)]
    unfold GatherDims.siCoord
    apply Fin.ext
    simp only [Fin.val_cast]
    exact coord3_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- [n × f × g] operand, [e × 1] start indices, [e × f × g] result, the second and third axes offset axes
    of full width: when the index word at (p, 0), read signed, is a slab number k < n, result element
    (p, c, c') is the operand's element (k, c, c'). -/
theorem gather3_apply {α : Type} {n f g e w : ℕ}
    (d : GatherDims ⟨3, ![n, f, g]⟩ ⟨2, ![e, 1]⟩ ⟨3, ![e, f, g]⟩)
    (hod : d.offsetDims = [1, 2]) (hcoll : d.collapsedSliceDims = [0]) (hob : d.operandBatchingDims = [])
    (hsim : d.startIndexMap = [0]) (hivd : d.indexVectorDim = 1)
    (x : (⟨3, ![n, f, g]⟩ : Shape).Idx → α) (idx : IVec ⟨2, ![e, 1]⟩ w) (j : (⟨3, ![e, f, g]⟩ : Shape).Idx)
    (k : ℕ) (hk : k < n) (hidx : (idx (ix2 (j 0) (0 : Fin 1))).toInt = (k : Int)) :
    Host.gather d x idx j = x (ix3 ⟨k, hk⟩ ⟨(j 1).val, (j 1).isLt⟩ ⟨(j 2).val, (j 2).isLt⟩) := by
  unfold Host.gather
  congr 1
  funext a
  apply Fin.ext
  have hb : ∀ a : Fin 3, a ∉ d.operandBatchingDims := by intro a; rw [hob]; exact List.not_mem_nil
  have hsk : d.sKept = [1, 2] := by
    show (⟨3, ![n, f, g]⟩ : Shape).kept (d.collapsedSliceDims ++ d.operandBatchingDims) = [1, 2]
    rw [hcoll, hob]; rfl
  have hoff : ∀ (i : ℕ) (hi : i < d.offsetDims.length) (v : ℕ), [1, 2][i]? = some v → (d.offsetDims[i]'hi).val = v := by
    intro i hi v hv
    have hi' : i < ([1, 2] : List (Fin 3)).length := by rw [← hod]; exact hi
    have e1 : d.offsetDims[i]'hi = ([1, 2] : List (Fin 3))[i]'hi' := List.getElem_of_eq hod hi
    rw [e1]
    have hi2 : i < 2 := hi'
    rcases (by omega : i = 0 ∨ i = 1) with rfl | rfl
    · simpa using hv
    · simpa using hv
  show d.start j idx a + d.batchCoord j a + d.offCoord j a
    = (ix3 (⟨k, hk⟩ : Fin n) (⟨(j 1).val, (j 1).isLt⟩ : Fin f) (⟨(j 2).val, (j 2).isLt⟩ : Fin g) a).val
  rw [GatherDims.batchCoord_eq_zero _ _ _ (hb a)]
  rcases fin3_cases a with rfl | rfl | rfl
  · have hkp : (0 : Fin 3) ∉ d.sKept := by rw [GatherDims.mem_sKept, hcoll]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather3_siIdx d hod hivd, hidx, hsl]
    show min (k : Int).toNat (n - 1) + 0 + 0 = k
    omega
  · have hkp : (1 : Fin 3) ∈ d.sKept := by rw [GatherDims.mem_sKept, hcoll, hob]; simp
    have hm : (1 : Fin 3) ∉ d.startIndexMap := by rw [hsim]; simp
    have hix : d.sKept.idxOf (1 : Fin 3) = 0 := by rw [hsk]; rfl
    unfold GatherDims.start GatherDims.offCoord
    rw [dif_neg hm, dif_pos hkp]
    show 0 + 0 + (j _).val = (j 1).val
    rw [coord3_of_val1 j _ (hoff _ _ 1 (by rw [hix]; rfl))]
    omega
  · have hkp : (2 : Fin 3) ∈ d.sKept := by rw [GatherDims.mem_sKept, hcoll, hob]; simp
    have hm : (2 : Fin 3) ∉ d.startIndexMap := by rw [hsim]; simp
    have hix : d.sKept.idxOf (2 : Fin 3) = 1 := by rw [hsk]; rfl
    unfold GatherDims.start GatherDims.offCoord
    rw [dif_neg hm, dif_pos hkp]
    show 0 + 0 + (j _).val = (j 2).val
    rw [coord3_of_val2 j _ (hoff _ _ 2 (by rw [hix]; rfl))]
    omega

/-- The same, by coordinates. -/
theorem gather3_ix_apply {α : Type} {n f g e w : ℕ}
    (d : GatherDims ⟨3, ![n, f, g]⟩ ⟨2, ![e, 1]⟩ ⟨3, ![e, f, g]⟩)
    (hod : d.offsetDims = [1, 2]) (hcoll : d.collapsedSliceDims = [0]) (hob : d.operandBatchingDims = [])
    (hsim : d.startIndexMap = [0]) (hivd : d.indexVectorDim = 1)
    (x : (⟨3, ![n, f, g]⟩ : Shape).Idx → α) (idx : IVec ⟨2, ![e, 1]⟩ w) (p : Fin e) (c : Fin f) (c' : Fin g)
    (k : ℕ) (hk : k < n) (hidx : (idx (ix2 p (0 : Fin 1))).toInt = (k : Int)) :
    Host.gather d x idx (ix3 p c c') = x (ix3 ⟨k, hk⟩ c c') :=
  gather3_apply d hod hcoll hob hsim hivd x idx (ix3 p c c') k hk hidx

end Cert.LibGatherRows3

end
-- ==== Proof.RefValue.lean ====
/-
  The reference program's result is the specification's array.

  The reference routes batch element b to the weight set of its category word cat[b].  Four times over (once
  per gathered table) it forms the index word  select (cat[b] <s 0) (cat[b] + 32) cat[b],  spreads it to a
  [128 × 1] column, and gathers slab (or row) number idx[b, 0] of the table, the number read signed and
  clamped into the table.  When every category word is below 32 as a natural number its sign bit is clear,
  the comparison is false, the select returns the word itself, its signed reading is the word's natural
  number, and the clamp does nothing: the gathered slab is the one numbered by the category.  The two
  contractions are then the sums over the model and hidden axes, the additions and the maximum with the zero
  word's value are pointwise, and the result at (b, t, o) is the specification's output for the weight set
  of batch element b.
-/
import proofs.«416208_j50190987821416_2_alg».proof.Proof.Gen.ReferenceIdeal.Read
import proofs.«416208_j50190987821416_2_alg».proof.Proof.Spec
import proofs.«416208_j50190987821416_2_alg».proof.Proof.LibIndexMaps
import proofs.«416208_j50190987821416_2_alg».proof.Proof.LibGatherRows3

noncomputable section

namespace Cert.ReferenceIdeal.RefValue

open Cert.ReferenceIdeal Cert.ReferenceIdeal.Gen Idealize.ShloMosaic Idealize.ShloMosaic.ValueIdx
open Cert.ReferenceIdeal.Read

/-! ## The index word -/

/-- A 32-bit word below 32 reads, signed, as its natural number. -/
theorem toInt_of_lt (w : BitVec 32) (h : w.toNat < 32) : w.toInt = (w.toNat : Int) := by
  rw [BitVec.toInt_eq_toNat_cond, if_pos (by omega)]

/-- A 32-bit word below 32 is not below zero in the signed order. -/
theorem slt_zero_of_lt (w : BitVec 32) (h : w.toNat < 32) : IntOp.cmpi .slt w 0#32 = 0#1 := by
  have hs : w.slt 0#32 = false := by
    rw [BitVec.slt, toInt_of_lt w h]
    simp
  show BitVec.ofBool (w.slt 0#32) = 0#1
  rw [hs]; rfl

/-- The wrapped index word of a word below 32 is the word itself. -/
theorem wrap_of_lt (w : BitVec 32) (h : w.toNat < 32) :
    Scalar.select (IntOp.cmpi .slt w 0#32) (IntOp.addi w 32#32) w = w := by
  rw [slt_zero_of_lt w h, select_zero]

/-! ## The four index columns -/

section
variable (x5 : (⟨S128, .i32⟩ : BufTy).Contents (Elt Ideal)) (hr : ∀ b : Fin 128, (x5 (ix1 b)).toNat < 32)
include hr

theorem col_v5 (b : Fin 128) : val_main_v5 (F := Ideal) x5 (ix2 b (0 : Fin 1)) = x5 (ix1 b) := by
  have hi : idx_main_v5 (ix2 b (0 : Fin 1)) = ix1 b := funext fun a => match a with | ⟨0, _⟩ => rfl
  rw [val_main_v5_apply, hi, val_main_v4_apply, val_main_v1_apply, val_main_v0_apply, val_main_c_apply,
    val_main_v3_apply, val_main_v2_apply, val_main_c_0_apply]
  exact wrap_of_lt _ (hr b)

theorem col_v13 (b : Fin 128) : val_main_v13 (F := Ideal) x5 (ix2 b (0 : Fin 1)) = x5 (ix1 b) := by
  have hi : idx_main_v13 (ix2 b (0 : Fin 1)) = ix1 b := funext fun a => match a with | ⟨0, _⟩ => rfl
  rw [val_main_v13_apply, hi, val_main_v12_apply, val_main_v9_apply, val_main_v8_apply, val_main_c_1_apply,
    val_main_v11_apply, val_main_v10_apply, val_main_c_2_apply]
  exact wrap_of_lt _ (hr b)

theorem col_v24 (b : Fin 128) : val_main_v24 (F := Ideal) x5 (ix2 b (0 : Fin 1)) = x5 (ix1 b) := by
  have hi : idx_main_v24 (ix2 b (0 : Fin 1)) = ix1 b := funext fun a => match a with | ⟨0, _⟩ => rfl
  rw [val_main_v24_apply, hi, val_main_v23_apply, val_main_v20_apply, val_main_v19_apply, val_main_c_3_apply,
    val_main_v22_apply, val_main_v21_apply, val_main_c_4_apply]
  exact wrap_of_lt _ (hr b)

theorem col_v32 (b : Fin 128) : val_main_v32 (F := Ideal) x5 (ix2 b (0 : Fin 1)) = x5 (ix1 b) := by
  have hi : idx_main_v32 (ix2 b (0 : Fin 1)) = ix1 b := funext fun a => match a with | ⟨0, _⟩ => rfl
  rw [val_main_v32_apply, hi, val_main_v31_apply, val_main_v28_apply, val_main_v27_apply, val_main_c_5_apply,
    val_main_v30_apply, val_main_v29_apply, val_main_c_6_apply]
  exact wrap_of_lt _ (hr b)

/-! ## The four gathers, at an index -/

/-- The first layer's gathered weights at (b, d, h) are the weights of b's category at (d, h). -/
theorem v6_at (x1 : (⟨S32x1536x1024, .f32⟩ : BufTy).Contents (Elt Ideal)) (b : Fin 128) (d : Fin 1536) (h : Fin 1024) :
    val_main_v6 (F := Ideal) x1 x5 (ix3 b d h) = x1 (ix3 (Cert.Spec.row x5 hr b) d h) := by
  unfold val_main_v6
  exact Cert.LibGatherRows3.gather3_ix_apply _ rfl rfl rfl rfl rfl x1 _ b d h _ (hr b)
    (by rw [col_v5 x5 hr b]; exact toInt_of_lt _ (hr b))

/-- The first layer's gathered biases at (b, h) are the biases of b's category at h. -/
theorem v14_at (x2 : (⟨S32x1024, .f32⟩ : BufTy).Contents (Elt Ideal)) (b : Fin 128) (h : Fin 1024) :
    val_main_v14 (F := Ideal) x2 x5 (ix2 b h) = x2 (ix2 (Cert.Spec.row x5 hr b) h) := by
  unfold val_main_v14
  exact Cert.Gcn.IndexMaps.gather2_ix_apply _ rfl rfl rfl rfl rfl x2 _ b h _ (hr b)
    (by rw [col_v13 x5 hr b]; exact toInt_of_lt _ (hr b))

/-- The second layer's gathered weights at (b, h, o) are the weights of b's category at (h, o). -/
theorem v25_at (x3 : (⟨S32x1024x16, .f32⟩ : BufTy).Contents (Elt Ideal)) (b : Fin 128) (h : Fin 1024) (o : Fin 16) :
    val_main_v25 (F := Ideal) x3 x5 (ix3 b h o) = x3 (ix3 (Cert.Spec.row x5 hr b) h o) := by
  unfold val_main_v25
  exact Cert.LibGatherRows3.gather3_ix_apply _ rfl rfl rfl rfl rfl x3 _ b h o _ (hr b)
    (by rw [col_v24 x5 hr b]; exact toInt_of_lt _ (hr b))

/-- The second layer's gathered biases at (b, o) are the biases of b's category at o. -/
theorem v33_at (x4 : (⟨S32x16, .f32⟩ : BufTy).Contents (Elt Ideal)) (b : Fin 128) (o : Fin 16) :
    val_main_v33 (F := Ideal) x4 x5 (ix2 b o) = x4 (ix2 (Cert.Spec.row x5 hr b) o) := by
  unfold val_main_v33
  exact Cert.Gcn.IndexMaps.gather2_ix_apply _ rfl rfl rfl rfl rfl x4 _ b o _ (hr b)
    (by rw [col_v32 x5 hr b]; exact toInt_of_lt _ (hr b))

/-! ## The layers, at an index -/

/-- The first contraction at (b, t, h): the sum over the model axis against the weights of b's category. -/
theorem v7_at (x0 : (⟨S128x256x1536, .f32⟩ : BufTy).Contents (Elt Ideal))
    (x1 : (⟨S32x1536x1024, .f32⟩ : BufTy).Contents (Elt Ideal)) (b : Fin 128) (t : Fin 256) (h : Fin 1024) :
    val_main_v7 (F := Ideal) x0 x1 x5 (ix3 b t h)
      = ∑ d : Fin 1536, x0 (ix3 b t d) * x1 (ix3 (Cert.Spec.row x5 hr b) d h) := by
  rw [val_main_v7_apply]
  refine Finset.sum_congr rfl fun k _ => ?_
  have hl : lidx_main_v7 (ix3 b t h) k = ix3 b t k := funext fun a => match a with
    | ⟨0, _⟩ => rfl | ⟨1, _⟩ => rfl | ⟨2, _⟩ => rfl
  have hrr : ridx_main_v7 (ix3 b t h) k = ix3 b k h := funext fun a => match a with
    | ⟨0, _⟩ => rfl | ⟨1, _⟩ => rfl | ⟨2, _⟩ => rfl
  rw [hl, hrr, v6_at x5 hr x1 b k h]

/-- The broadcast first-layer bias at (b, t, h) is the bias of b's category at h. -/
theorem v16_at (x2 : (⟨S32x1024, .f32⟩ : BufTy).Contents (Elt Ideal)) (b : Fin 128) (t : Fin 256) (h : Fin 1024) :
    val_main_v16 (F := Ideal) x2 x5 (ix3 b t h) = x2 (ix2 (Cert.Spec.row x5 hr b) h) := by
  have h1 : idx_main_v15 (idx_main_v16 (ix3 b t h)) = ix2 b h := funext fun a => match a with
    | ⟨0, _⟩ => rfl | ⟨1, _⟩ => rfl
  rw [val_main_v16_apply, val_main_v15_apply, h1, v14_at x5 hr x2 b h]

/-- The hidden activation at (b, t, h) is the specification's, for the weight set of b's category. -/
theorem v18_at (x0 : (⟨S128x256x1536, .f32⟩ : BufTy).Contents (Elt Ideal))
    (x1 : (⟨S32x1536x1024, .f32⟩ : BufTy).Contents (Elt Ideal)) (x2 : (⟨S32x1024, .f32⟩ : BufTy).Contents (Elt Ideal))
    (b : Fin 128) (t : Fin 256) (h : Fin 1024) :
    val_main_v18 (F := Ideal) x0 x1 x2 x5 (ix3 b t h) = Cert.Spec.hidden x0 x1 x2 (Cert.Spec.row x5 hr b) b t h := by
  rw [val_main_v18_apply, val_main_v17_apply, v7_at x5 hr x0 x1 b t h, v16_at x5 hr x2 b t h,
    val_main_call0_v0_apply, val_main_call0_cst_apply]
  rfl

/-- The broadcast second-layer bias at (b, t, o) is the bias of b's category at o. -/
theorem v35_at (x4 : (⟨S32x16, .f32⟩ : BufTy).Contents (Elt Ideal)) (b : Fin 128) (t : Fin 256) (o : Fin 16) :
    val_main_v35 (F := Ideal) x4 x5 (ix3 b t o) = x4 (ix2 (Cert.Spec.row x5 hr b) o) := by
  have h1 : idx_main_v34 (idx_main_v35 (ix3 b t o)) = ix2 b o := funext fun a => match a with
    | ⟨0, _⟩ => rfl | ⟨1, _⟩ => rfl
  rw [val_main_v35_apply, val_main_v34_apply, h1, v33_at x5 hr x4 b o]

/-- The second contraction at (b, t, o): the sum over the hidden axis of the specification's hidden
    activations against the second layer's weights of b's category. -/
theorem v26_at (x0 : (⟨S128x256x1536, .f32⟩ : BufTy).Contents (Elt Ideal))
    (x1 : (⟨S32x1536x1024, .f32⟩ : BufTy).Contents (Elt Ideal)) (x2 : (⟨S32x1024, .f32⟩ : BufTy).Contents (Elt Ideal))
    (x3 : (⟨S32x1024x16, .f32⟩ : BufTy).Contents (Elt Ideal)) (b : Fin 128) (t : Fin 256) (o : Fin 16) :
    val_main_v26 (F := Ideal) x0 x1 x2 x3 x5 (ix3 b t o)
      = ∑ h : Fin 1024, Cert.Spec.hidden x0 x1 x2 (Cert.Spec.row x5 hr b) b t h * x3 (ix3 (Cert.Spec.row x5 hr b) h o) := by
  rw [val_main_v26_apply]
  refine Finset.sum_congr rfl fun k _ => ?_
  have hl : lidx_main_v26 (ix3 b t o) k = ix3 b t k := funext fun a => match a with
    | ⟨0, _⟩ => rfl | ⟨1, _⟩ => rfl | ⟨2, _⟩ => rfl
  have hrr : ridx_main_v26 (ix3 b t o) k = ix3 b k o := funext fun a => match a with
    | ⟨0, _⟩ => rfl | ⟨1, _⟩ => rfl | ⟨2, _⟩ => rfl
  rw [hl, hrr, v18_at x5 hr x0 x1 x2 b t k, v25_at x5 hr x3 b k o]

end

/-! ## The result -/

/-- Under the hypothesis that every category word is below 32, the reference program's result is the
    specification's array for the categories read off the words. -/
theorem ref_eq (x0 : (⟨S128x256x1536, .f32⟩ : BufTy).Contents (Elt Ideal)) (x1 : (⟨S32x1536x1024, .f32⟩ : BufTy).Contents (Elt Ideal))
    (x2 : (⟨S32x1024, .f32⟩ : BufTy).Contents (Elt Ideal)) (x3 : (⟨S32x1024x16, .f32⟩ : BufTy).Contents (Elt Ideal))
    (x4 : (⟨S32x16, .f32⟩ : BufTy).Contents (Elt Ideal)) (x5 : (⟨S128, .i32⟩ : BufTy).Contents (Elt Ideal))
    (hr : ∀ b : Fin 128, (x5 (ix1 b)).toNat < 32) :
    Cert.ReferenceIdeal.Read.val_main_v36 (F := Ideal) x0 x1 x2 x3 x4 x5 = Cert.Spec.G x0 x1 x2 x3 x4 (Cert.Spec.row x5 hr) := by
  funext i
  obtain ⟨b, t, o, rfl⟩ : ∃ b t o, i = ix3 b t o := ⟨i 0, i 1, i 2, eq_ix3 i⟩
  rw [Cert.Spec.G_apply, val_main_v36_apply, v26_at x5 hr x0 x1 x2 x3 b t o, v35_at x5 hr x4 b t o]
  rfl

end Cert.ReferenceIdeal.RefValue

end
-- ==== Proof.lean ====
/-
  The category-routed two-layer head: the kernel against its jnp reference, over the extended reals.

  Both programs compute, for batch element b, token t, output unit o, with q the category of b,

      (Σ_h  max ((Σ_d x[b,t,d] · W1[q,d,h]) + b1[q,h]) 0 · W2[q,h,o])  +  b2[q,o].

  The kernel routes by a prefetched table: its weight windows' index maps read the category word of the
  grid point's batch element, so its frames hold where every category word names one of the 32 weight
  sets — the precondition's last conjunct, 0 ≤ cat_ids < 32, beside the finiteness of the float inputs
  (which the value argument never opens: the two sides are the same sums of the same products, term by
  term).  The reference gathers the weight rows by the same words; with a word in range its wrap of
  negative indices and the gather's clamp do nothing.  The narrowings to a shorter float format the kernel
  makes are the identity on the extended reals, and its matrix products start from zero accumulators.
-/
import proofs.«416208_j50190987821416_2_alg».proof.Defs
import proofs.«416208_j50190987821416_2_alg».proof.Proof.Gen.Kernel.Frame
import proofs.«416208_j50190987821416_2_alg».proof.Proof.Gen.KernelIdeal.Frame
import proofs.«416208_j50190987821416_2_alg».proof.Proof.Gen.ReferenceIdeal.Run
import proofs.«416208_j50190987821416_2_alg».proof.Proof.Gen.ReferenceIdeal.Read
import proofs.«416208_j50190987821416_2_alg».proof.Proof.Gen.Pre_finite_inputs
import proofs.«416208_j50190987821416_2_alg».proof.Proof.OkKernel
import proofs.«416208_j50190987821416_2_alg».proof.Proof.OkKernelIdeal
import proofs.«416208_j50190987821416_2_alg».proof.Proof.KRun
import proofs.«416208_j50190987821416_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments: the category words are in range, so every
    table-indexed block lies inside its array. -/
theorem frame_k : Cert.frame_Kernel := fun m ρ h =>
  Cert.Kernel.Gen.frame m ρ (Cert.Kernel.OkOfPre.ok_of_pre m h)

/-- The same for the idealized kernel. -/
theorem frame_ki : Cert.frame_KernelIdeal := fun m ρ h =>
  Cert.KernelIdeal.Gen.frame m ρ (Cert.KernelIdeal.OkOfPre.ok_of_pre m h)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result term, at arguments equal to the kernel's, is the specification's array of the kernel's
    arguments. -/
theorem ref_is_spec (m : (ℓ : Loc Cert.KernelIdeal.nD Cert.KernelIdeal.τ Cert.KernelIdeal.sig) → Buf (Elt Ideal) ℓ)
    (hr : ∀ b : Fin 128, (Cert.KernelIdeal.KValue.catw m b).toNat < 32)
    (y0 : (⟨Cert.ReferenceIdeal.S128x256x1536, .f32⟩ : BufTy).Contents (Elt Ideal)) (y1 : (⟨Cert.ReferenceIdeal.S32x1536x1024, .f32⟩ : BufTy).Contents (Elt Ideal))
    (y2 : (⟨Cert.ReferenceIdeal.S32x1024, .f32⟩ : BufTy).Contents (Elt Ideal)) (y3 : (⟨Cert.ReferenceIdeal.S32x1024x16, .f32⟩ : BufTy).Contents (Elt Ideal))
    (y4 : (⟨Cert.ReferenceIdeal.S32x16, .f32⟩ : BufTy).Contents (Elt Ideal)) (y5 : (⟨Cert.ReferenceIdeal.S128, .i32⟩ : BufTy).Contents (Elt Ideal))
    (e0 : y0 = m (((0 : Dev Cert.KernelIdeal.nD).tc : Thread Cert.KernelIdeal.nD Cert.KernelIdeal.τ).loc Cert.KernelIdeal.main_arg0))
    (e1 : y1 = m (((0 : Dev Cert.KernelIdeal.nD).tc : Thread Cert.KernelIdeal.nD Cert.KernelIdeal.τ).loc Cert.KernelIdeal.main_arg1))
    (e2 : y2 = m (((0 : Dev Cert.KernelIdeal.nD).tc : Thread Cert.KernelIdeal.nD Cert.KernelIdeal.τ).loc Cert.KernelIdeal.main_arg2))
    (e3 : y3 = m (((0 : Dev Cert.KernelIdeal.nD).tc : Thread Cert.KernelIdeal.nD Cert.KernelIdeal.τ).loc Cert.KernelIdeal.main_arg3))
    (e4 : y4 = m (((0 : Dev Cert.KernelIdeal.nD).tc : Thread Cert.KernelIdeal.nD Cert.KernelIdeal.τ).loc Cert.KernelIdeal.main_arg4))
    (e5 : y5 = m (((0 : Dev Cert.KernelIdeal.nD).tc : Thread Cert.KernelIdeal.nD Cert.KernelIdeal.τ).loc Cert.KernelIdeal.main_arg5)) :
    Cert.ReferenceIdeal.Read.val_main_v36 (F := Ideal) y0 y1 y2 y3 y4 y5 = Cert.KernelIdeal.KValue.Gm m hr 0 := by
  subst e0 e1 e2 e3 e4 e5
  exact Cert.ReferenceIdeal.RefValue.ref_eq _ _ _ _ _ _ hr

/-- Run from memories agreeing on the arguments, both idealized programs end with the specification's array:
    the kernel by its blocks, the reference by reading its operations at an index. -/
theorem algebraic : Cert.algebraic_KernelIdeal_ReferenceIdeal := by
  intro m ρ m' ρ' hpre hagree
  have hr : ∀ b : Fin 128, (Cert.KernelIdeal.KValue.catw m b).toNat < 32 := fun b =>
    Cert.KernelIdeal.OkOfPre.cat_lt m hpre 0 b
  refine ⟨fun c => Cert.KernelIdeal.KValue.Gm m hr c,
    Cert.KernelIdeal.KValue.run m ρ (Cert.KernelIdeal.OkOfPre.ok_of_pre m hpre) hr, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  exact (Cert.ReferenceIdeal.Read.val_main_v36_eq _ _ _ _ _ _).trans
    (ref_is_spec m hr _ _ _ _ _ _ (hagree 0).1 (hagree 0).2.1 (hagree 0).2.2.1 (hagree 0).2.2.2.1 (hagree 0).2.2.2.2.1 (hagree 0).2.2.2.2.2)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
